-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S1600000 : Shape := ⟨1, ![1600000]⟩
abbrev S95x95x5x5x3 : Shape := ⟨5, ![95, 95, 5, 5, 3]⟩
abbrev S95 : Shape := ⟨1, ![95]⟩
abbrev S_ : Shape := ⟨0, ![]⟩

class Facts : Prop where
  bcast_S_S1600000 : S_.BroadcastsInDim S1600000 (![] : Fin 0 → Fin S1600000.rank)
  reducesTo_S1600000_S_d0 : S1600000.ReducesTo [0] S_
  h_S_ : 0 < S_.numel
  bcast_S_S95x95x5x5x3 : S_.BroadcastsInDim S95x95x5x5x3 (![] : Fin 0 → Fin S95x95x5x5x3.rank)
  reducesTo_S95x95x5x5x3_S_d0_1_2_3_4 : S95x95x5x5x3.ReducesTo [0, 1, 2, 3, 4] S_
  bcast_S_S95 : S_.BroadcastsInDim S95 (![] : Fin 0 → Fin S95.rank)
  reducesTo_S95_S_d0 : S95.ReducesTo [0] S_
  bcast_S_S50000 : S_.BroadcastsInDim S50000 (![] : Fin 0 → Fin S50000.rank)
  reducesTo_S50000_S_d0 : S50000.ReducesTo [0] S_

variable [Facts]

def fn_part1 {F : FTy → Type} [FloatOps F] (main_arg0 : IVec S50000 32) (main_v13 : IVec S_ 1) (main_v16 : IVec S95 1) : IVec S_ 1 :=
  let main_c_5 : IVec S_ 1 := constantI S_ 1 1#1
  let main_v17 : IVec S_ 1 := (fun x v => Host.reduce IntOp.andi x v reducesTo_S95_S_d0 h_S_) main_v16 main_c_5
  let main_v18 : IVec S_ 1 := andi main_v13 main_v17
  let main_c_6 : IVec S_ 32 := constantI S_ 32 0#32
  let main_v19 : IVec S50000 32 := broadcastInDim S50000 ![] bcast_S_S50000 main_c_6
  let main_v20 : IVec S50000 1 := cmpi .sge main_arg0 main_v19
  let main_c_7 : IVec S_ 32 := constantI S_ 32 95#32
  let main_v21 : IVec S50000 32 := broadcastInDim S50000 ![] bcast_S_S50000 main_c_7
  let main_v22 : IVec S50000 1 := cmpi .slt main_arg0 main_v21
  let main_v23 : IVec S50000 1 := andi main_v20 main_v22
  let main_c_8 : IVec S_ 1 := constantI S_ 1 1#1
  let main_v24 : IVec S_ 1 := (fun x v => Host.reduce IntOp.andi x v reducesTo_S50000_S_d0 h_S_) main_v23 main_c_8
  let main_v25 : IVec S_ 1 := andi main_v18 main_v24
  main_v25

def fn {F : FTy → Type} [FloatOps F] (main_arg0 : IVec S50000 32) (main_arg1 : FVec F S1600000 .f32) (main_arg2 : IVec S1600000 32) (main_arg3 : IVec S1600000 32) (main_arg4 : FVec F S95x95x5x5x3 .f32) (main_arg5 : FVec F S95 .f32) (main_arg6 : FVec F S95 .f32) : IVec S_ 1 :=
  let main_v0 : FVec F S1600000 .f32 := Host.absf main_arg1
  let main_cst : FVec F S_ .f32 := constant S_ .f32 0x7F800000#32
  let main_v1 : FVec F S1600000 .f32 := broadcastInDim S1600000 ![] bcast_S_S1600000 main_cst
  let main_v2 : IVec S1600000 1 := cmpf .olt main_v0 main_v1
  let main_c : IVec S_ 1 := constantI S_ 1 1#1
  let main_v3 : IVec S_ 1 := (fun x v => Host.reduce IntOp.andi x v reducesTo_S1600000_S_d0 h_S_) main_v2 main_c
  let main_v4 : FVec F S95x95x5x5x3 .f32 := Host.absf main_arg4
  let main_cst_0 : FVec F S_ .f32 := constant S_ .f32 0x7F800000#32
  let main_v5 : FVec F S95x95x5x5x3 .f32 := broadcastInDim S95x95x5x5x3 ![] bcast_S_S95x95x5x5x3 main_cst_0
  let main_v6 : IVec S95x95x5x5x3 1 := cmpf .olt main_v4 main_v5
  let main_c_1 : IVec S_ 1 := constantI S_ 1 1#1
  let main_v7 : IVec S_ 1 := (fun x v => Host.reduce IntOp.andi x v reducesTo_S95x95x5x5x3_S_d0_1_2_3_4 h_S_) main_v6 main_c_1
  let main_v8 : IVec S_ 1 := andi main_v3 main_v7
  let main_v9 : FVec F S95 .f32 := Host.absf main_arg5
  let main_cst_2 : FVec F S_ .f32 := constant S_ .f32 0x7F800000#32
  let main_v10 : FVec F S95 .f32 := broadcastInDim S95 ![] bcast_S_S95 main_cst_2
  let main_v11 : IVec S95 1 := cmpf .olt main_v9 main_v10
  let main_c_3 : IVec S_ 1 := constantI S_ 1 1#1
  let main_v12 : IVec S_ 1 := (fun x v => Host.reduce IntOp.andi x v reducesTo_S95_S_d0 h_S_) main_v11 main_c_3
  let main_v13 : IVec S_ 1 := andi main_v8 main_v12
  let main_v14 : FVec F S95 .f32 := Host.absf main_arg6
  let main_cst_4 : FVec F S_ .f32 := constant S_ .f32 0x7F800000#32
  let main_v15 : FVec F S95 .f32 := broadcastInDim S95 ![] bcast_S_S95 main_cst_4
  let main_v16 : IVec S95 1 := cmpf .olt main_v14 main_v15
  fn_part1 (F := F) main_arg0 main_v13 main_v16
-- ==== Kernel.lean ====
abbrev S50000 : Shape := ⟨1, ![50000]⟩
abbrev S1600000 : Shape := ⟨1, ![1600000]⟩
abbrev S95x95x5x5x3 : Shape := ⟨5, ![95, 95, 5, 5, 3]⟩
abbrev S95 : Shape := ⟨1, ![95]⟩
abbrev S_ : Shape := ⟨0, ![]⟩
abbrev S1600000x1 : Shape := ⟨2, ![1600000, 1]⟩
abbrev S9025x25x3 : Shape := ⟨3, ![9025, 25, 3]⟩
abbrev S3x25x9025 : Shape := ⟨3, ![3, 25, 9025]⟩
abbrev S1 : Shape := ⟨1, ![1]⟩
abbrev S1x1 : Shape := ⟨2, ![1, 1]⟩
abbrev S3x25x1600000 : Shape := ⟨3, ![3, 25, 1600000]⟩
abbrev S75x1600000 : Shape := ⟨2, ![75, 1600000]⟩
abbrev S1x1600000 : Shape := ⟨2, ![1, 1600000]⟩
abbrev S5x1600000 : Shape := ⟨2, ![5, 1600000]⟩
abbrev S5x16000 : Shape := ⟨2, ![5, 16000]⟩
abbrev S75x16000 : Shape := ⟨2, ![75, 16000]⟩
abbrev S1x16000 : Shape := ⟨2, ![1, 16000]⟩
abbrev S25x16000 : Shape := ⟨2, ![25, 16000]⟩
abbrev S16000 : Shape := ⟨1, ![16000]⟩

abbrev nBuf : Space → Nat
  | .hbm => 147
  | .vmem => 6
  | .smem => 0
  | _ => 0

abbrev hbmTy0_0 (i : Nat) : BufTy := match i % 128 with
  | 0 => ⟨S50000, .i32⟩
  | 1 => ⟨S1600000, .f32⟩
  | 2 => ⟨S1600000, .i32⟩
  | 3 => ⟨S1600000, .i32⟩
  | 4 => ⟨S95x95x5x5x3, .f32⟩
  | 5 => ⟨S95, .f32⟩
  | 6 => ⟨S95, .f32⟩
  | 7 => ⟨S_, .f32⟩
  | 8 => ⟨S1600000, .f32⟩
  | 9 => ⟨S1600000, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000, .i32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S1600000, .f32⟩
  | 48 => ⟨S_, .f32⟩
  | 49 => ⟨S1600000, .f32⟩
  | 50 => ⟨S1600000, .f32⟩
  | 51 => ⟨S_, .f32⟩
  | 52 => ⟨S1600000, .f32⟩
  | 53 => ⟨S1600000, .f32⟩
  | 54 => ⟨S1600000, .f32⟩
  | 55 => ⟨S1600000, .f32⟩
  | 56 => ⟨S_, .f32⟩
  | 57 => ⟨S1600000, .f32⟩
  | 58 => ⟨S1600000, .f32⟩
  | 59 => ⟨S_, .f32⟩
  | 60 => ⟨S1600000, .f32⟩
  | 61 => ⟨S1600000, .f32⟩
  | 62 => ⟨S_, .f32⟩
  | 63 => ⟨S50000, .f32⟩
  | 64 => ⟨S1600000x1, .i32⟩
  | 65 => ⟨S50000, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1600000, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000, .f32⟩
  | 102 => ⟨S9025x25x3, .f32⟩
  | 103 => ⟨S3x25x9025, .f32⟩
  | 104 => ⟨S_, .i32⟩
  | 105 => ⟨S1600000, .i32⟩
  | 106 => ⟨S1600000, .i32⟩
  | 107 => ⟨S1600000, .i32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1, .i32⟩
  | 117 => ⟨S_, .i32⟩
  | 118 => ⟨S1600000x1, .i32⟩
  | 119 => ⟨S1600000x1, .i1⟩
  | 120 => ⟨S1x1, .i32⟩
  | 121 => ⟨S1600000x1, .i32⟩
  | 122 => ⟨S1600000x1, .i1⟩
  | 123 => ⟨S1600000x1, .i1⟩
  | 124 => ⟨S_, .i1⟩
  | 125 => ⟨S1600000, .i1⟩
  | 126 => ⟨S3x25x1600000, .f32⟩
  | 127 => ⟨S3x25x1600000, .i1⟩
  | _ => ⟨S50000, .i32⟩

abbrev hbmTy0_1 (i : Nat) : BufTy := match i % 128 with
  | 0 => ⟨S_, .f32⟩
  | 1 => ⟨S3x25x1600000, .f32⟩
  | 2 => ⟨S3x25x1600000, .f32⟩
  | 3 => ⟨S75x1600000, .f32⟩
  | 4 => ⟨S1x1600000, .f32⟩
  | 5 => ⟨S1x1600000, .f32⟩
  | 6 => ⟨S1x1600000, .f32⟩
  | 7 => ⟨S1x1600000, .f32⟩
  | 8 => ⟨S1x1600000, .f32⟩
  | 9 => ⟨S5x1600000, .f32⟩
  | 10 => ⟨S1x1600000, .f32⟩
  | 11 => ⟨S1600000, .f32⟩
  | 12 => ⟨S_, .f32⟩
  | 13 => ⟨S50000, .f32⟩
  | 14 => ⟨S1600000x1, .i32⟩
  | 15 => ⟨S50000, .f32⟩
  | 16 => ⟨S_, .f32⟩
  | 17 => ⟨S50000, .f32⟩
  | 18 => ⟨S50000, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | .local _ .vmem, ⟨0, _⟩ => ⟨S5x16000, .f32⟩
  | .local _ .vmem, ⟨1, _⟩ => ⟨S5x16000, .f32⟩
  | .local _ .vmem, ⟨2, _⟩ => ⟨S75x16000, .f32⟩
  | .local _ .vmem, ⟨3, _⟩ => ⟨S75x16000, .f32⟩
  | .local _ .vmem, ⟨4, _⟩ => ⟨S1x16000, .f32⟩
  | .local _ .vmem, ⟨5, _⟩ => ⟨S1x16000, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_v41 : Ref sig .tc := ⟨.hbm, 61, rfl⟩
abbrev main_cst_11 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_12 : Ref sig .tc := ⟨.hbm, 66, rfl⟩
abbrev main_v45 : Ref sig .tc := ⟨.hbm, 67, rfl⟩
abbrev main_v46 : Ref sig .tc := ⟨.hbm, 68, rfl⟩
abbrev main_c_13 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_14 : Ref sig .tc := ⟨.hbm, 75, rfl⟩
abbrev main_v52 : Ref sig .tc := ⟨.hbm, 76, rfl⟩
abbrev main_v53 : Ref sig .tc := ⟨.hbm, 77, rfl⟩
abbrev main_c_15 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_16 : Ref sig .tc := ⟨.hbm, 84, rfl⟩
abbrev main_v59 : Ref sig .tc := ⟨.hbm, 85, rfl⟩
abbrev main_v60 : Ref sig .tc := ⟨.hbm, 86, rfl⟩
abbrev main_c_17 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_18 : Ref sig .tc := ⟨.hbm, 93, rfl⟩
abbrev main_v66 : Ref sig .tc := ⟨.hbm, 94, rfl⟩
abbrev main_v67 : Ref sig .tc := ⟨.hbm, 95, rfl⟩
abbrev main_c_19 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_20 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_call0_c : Ref sig .tc := ⟨.hbm, 108, rfl⟩
abbrev main_call0_v0 : Ref sig .tc := ⟨.hbm, 109, rfl⟩
abbrev main_call0_v1 : Ref sig .tc := ⟨.hbm, 110, rfl⟩
abbrev main_call0_c_0 : Ref sig .tc := ⟨.hbm, 111, rfl⟩
abbrev main_call0_v2 : Ref sig .tc := ⟨.hbm, 112, rfl⟩
abbrev main_call0_v3 : Ref sig .tc := ⟨.hbm, 113, rfl⟩
abbrev main_call0_v4 : Ref sig .tc := ⟨.hbm, 114, rfl⟩
abbrev main_call0_v5 : Ref sig .tc := ⟨.hbm, 115, rfl⟩
abbrev main_call0_c_1 : Ref sig .tc := ⟨.hbm, 116, rfl⟩
abbrev main_call0_c_2 : Ref sig .tc := ⟨.hbm, 117, rfl⟩
abbrev main_call0_v6 : Ref sig .tc := ⟨.hbm, 118, rfl⟩
abbrev main_call0_v7 : Ref sig .tc := ⟨.hbm, 119, rfl⟩
abbrev main_call0_v8 : Ref sig .tc := ⟨.hbm, 120, rfl⟩
abbrev main_call0_v9 : Ref sig .tc := ⟨.hbm, 121, rfl⟩
abbrev main_call0_v10 : Ref sig .tc := ⟨.hbm, 122, rfl⟩
abbrev main_call0_v11 : Ref sig .tc := ⟨.hbm, 123, rfl⟩
abbrev main_call0_c_3 : Ref sig .tc := ⟨.hbm, 124, rfl⟩
abbrev main_call0_v12 : Ref sig .tc := ⟨.hbm, 125, rfl⟩
abbrev main_call0_v13 : Ref sig .tc := ⟨.hbm, 126, rfl⟩
abbrev main_call0_v14 : Ref sig .tc := ⟨.hbm, 127, rfl⟩
abbrev main_call0_cst : Ref sig .tc := ⟨.hbm, 128, rfl⟩
abbrev main_call0_v15 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_cst_21 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_cst_22 : Ref sig .tc := ⟨.hbm, 144, rfl⟩
abbrev main_v91 : Ref sig .tc := ⟨.hbm, 145, rfl⟩
abbrev main_v92 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S5x16000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S75x16000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000 : S_.BroadcastsInDim S50000 (![] : Fin 0 → Fin S50000.rank)
  shapeCasts_S95x95x5x5x3_S9025x25x3 : S95x95x5x5x3.ShapeCasts S9025x25x3
  transposes_S9025x25x3_S3x25x9025_2_1_0 : S9025x25x3.Transposes [2, 1, 0] S3x25x9025
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S3x25x1600000_2 : S1600000.BroadcastsInDim S3x25x1600000 (![2] : Fin 1 → Fin S3x25x1600000.rank)
  bcast_S_S3x25x1600000 : S_.BroadcastsInDim S3x25x1600000 (![] : Fin 0 → Fin S3x25x1600000.rank)
  shapeCasts_S3x25x1600000_S75x1600000 : S3x25x1600000.ShapeCasts S75x1600000
  bcast_S1600000_S1x1600000_1 : S1600000.BroadcastsInDim S1x1600000 (![1] : Fin 1 → Fin S1x1600000.rank)
  concatenates_S1x1600000_S1x1600000_S1x1600000_S1x1600000_S1x1600000_S5x1600000_d0 : Shape.Concatenates [S1x1600000, S1x1600000, S1x1600000, S1x1600000, S1x1600000] S5x1600000 0
  inb_S5x16000_S1x16000_0_0 : ∀ a, (![0, 0] : Fin 2 → Nat) a + S1x16000.size a ≤ S5x16000.size a
  h_S1x16000 : 0 < S1x16000.numel
  shapeCasts_S1x16000_S1x16000 : S1x16000.ShapeCasts S1x16000
  inb_S5x16000_S1x16000_1_0 : ∀ a, (![1, 0] : Fin 2 → Nat) a + S1x16000.size a ≤ S5x16000.size a
  inb_S5x16000_S1x16000_2_0 : ∀ a, (![2, 0] : Fin 2 → Nat) a + S1x16000.size a ≤ S5x16000.size a
  inb_S5x16000_S1x16000_3_0 : ∀ a, (![3, 0] : Fin 2 → Nat) a + S1x16000.size a ≤ S5x16000.size a
  inb_S5x16000_S1x16000_4_0 : ∀ a, (![4, 0] : Fin 2 → Nat) a + S1x16000.size a ≤ S5x16000.size a
  inb_S75x16000_S25x16000_0_0 : ∀ a, (![0, 0] : Fin 2 → Nat) a + S25x16000.size a ≤ S75x16000.size a
  h_S25x16000 : 0 < S25x16000.numel
  shapeCasts_S25x16000_S25x16000 : S25x16000.ShapeCasts S25x16000
  inb_S75x16000_S25x16000_25_0 : ∀ a, (![25, 0] : Fin 2 → Nat) a + S25x16000.size a ≤ S75x16000.size a
  inb_S75x16000_S25x16000_50_0 : ∀ a, (![50, 0] : Fin 2 → Nat) a + S25x16000.size a ≤ S75x16000.size a
  broadcasts_S1x16000_S25x16000 : S1x16000.Broadcasts S25x16000
  reduces_S25x16000_S16000 : S25x16000.Reduces [0] S16000
  shapeCasts_S16000_S1x16000 : S16000.ShapeCasts S1x16000
  inb_S1x16000_S1x16000_0_0 : ∀ a, (![0, 0] : Fin 2 → Nat) a + S1x16000.size a ≤ S1x16000.size a
  shapeCasts_S1x1600000_S1600000 : S1x1600000.ShapeCasts S1600000
  gather_S50000_S1600000x1_S1600000_n_0_n_n_0_1_1_wf : GatherDims.WF S50000 S1600000x1 S1600000 [] [0] [] [0] [] 1 ![1]
  gather_S95_S1600000x1_S1600000_n_0_n_n_0_1_1_wf : GatherDims.WF S95 S1600000x1 S1600000 [] [0] [] [0] [] 1 ![1]
  scatter_S50000_S1600000x1_S1600000_n_0_0_1_wf : ScatterDims.WF S50000 S1600000x1 S1600000 [] [0] [0] 1
  gather_S3x25x9025_S1600000x1_S3x25x1600000_01_2_n_n_2_1_3251_wf : GatherDims.WF S3x25x9025 S1600000x1 S3x25x1600000 [0, 1] [2] [] [2] [] 1 ![3, 25, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5x16000.size a ≤ S5x1600000.size a
  hwx0_0 : ∀ i : grid0.Coords, EltTy.bits .f32 = 32 ∨ (Rect.block (s := S5x1600000) S5x16000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S75x16000.size a ≤ S75x1600000.size a
  hwx0_1 : ∀ i : grid0.Coords, EltTy.bits .f32 = 32 ∨ (Rect.block (s := S75x1600000) S75x16000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16000.size a ≤ S1x1600000.size a
  hwx0_2 : ∀ i : grid0.Coords, EltTy.bits .f32 = 32 ∨ (Rect.block (s := S1x1600000) S1x16000.size (cc0_transform_2 i) (hinb0_2 i)).WholeWords (EltTy.packing .f32)

variable [Facts₀]

def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S95_S1600000x1_S1600000_n_0_n_n_0_1_1 : GatherDims S95 S1600000x1 S1600000 where
  offsetDims := []
  collapsedSliceDims := [0]
  operandBatchingDims := []
  startIndicesBatchingDims := []
  startIndexMap := [0]
  indexVectorDim := 1
  sliceSizes := ![1]
  wf := gather_S95_S1600000x1_S1600000_n_0_n_n_0_1_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S3x25x9025_S1600000x1_S3x25x1600000_01_2_n_n_2_1_3251 : GatherDims S3x25x9025 S1600000x1 S3x25x1600000 where
  offsetDims := [0, 1]
  collapsedSliceDims := [2]
  operandBatchingDims := []
  startIndicesBatchingDims := []
  startIndexMap := [2]
  indexVectorDim := 1
  sliceSizes := ![3, 25, 1]
  wf := gather_S3x25x9025_S1600000x1_S3x25x1600000_01_2_n_n_2_1_3251_wf

abbrev win0_0 : Pipeline.Window sig grid0 :=
  Pipeline.Window.ofSpec (Memref.whole main_v85) S5x16000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v79) S75x16000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v86) S1x16000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000 : Shape := ⟨1, ![50000]⟩
abbrev S1600000 : Shape := ⟨1, ![1600000]⟩
abbrev S95x95x5x5x3 : Shape := ⟨5, ![95, 95, 5, 5, 3]⟩
abbrev S95 : Shape := ⟨1, ![95]⟩
abbrev S_ : Shape := ⟨0, ![]⟩
abbrev S1600000x1 : Shape := ⟨2, ![1600000, 1]⟩
abbrev S1600000x2 : Shape := ⟨2, ![1600000, 2]⟩
abbrev S1600000x5x5x3 : Shape := ⟨4, ![1600000, 5, 5, 3]⟩
abbrev S1600000x25x3 : Shape := ⟨3, ![1600000, 25, 3]⟩
abbrev S1600000x25x1 : Shape := ⟨3, ![1600000, 25, 1]⟩
abbrev S1600000x25 : Shape := ⟨2, ![1600000, 25]⟩

abbrev nBuf : Space → Nat
  | .hbm => 208
  | .vmem => 0
  | .smem => 0
  | _ => 0

abbrev hbmTy0_0 (i : Nat) : BufTy := match i % 128 with
  | 0 => ⟨S50000, .i32⟩
  | 1 => ⟨S1600000, .f32⟩
  | 2 => ⟨S1600000, .i32⟩
  | 3 => ⟨S1600000, .i32⟩
  | 4 => ⟨S95x95x5x5x3, .f32⟩
  | 5 => ⟨S95, .f32⟩
  | 6 => ⟨S95, .f32⟩
  | 7 => ⟨S_, .f32⟩
  | 8 => ⟨S1600000, .f32⟩
  | 9 => ⟨S1600000, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000, .i32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S1600000, .f32⟩
  | 48 => ⟨S_, .f32⟩
  | 49 => ⟨S1600000, .f32⟩
  | 50 => ⟨S1600000, .f32⟩
  | 51 => ⟨S_, .f32⟩
  | 52 => ⟨S1600000, .f32⟩
  | 53 => ⟨S1600000, .f32⟩
  | 54 => ⟨S1600000, .f32⟩
  | 55 => ⟨S_, .f32⟩
  | 56 => ⟨S1600000, .f32⟩
  | 57 => ⟨S1600000, .f32⟩
  | 58 => ⟨S_, .f32⟩
  | 59 => ⟨S1600000, .f32⟩
  | 60 => ⟨S1600000, .f32⟩
  | 61 => ⟨S_, .f32⟩
  | 62 => ⟨S50000, .f32⟩
  | 63 => ⟨S1600000x1, .i32⟩
  | 64 => ⟨S50000, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x1, .i32⟩
  | 99 => ⟨S1600000x2, .i32⟩
  | 100 => ⟨S1600000x5x5x3, .f32⟩
  | 101 => ⟨S1600000x25x3, .f32⟩
  | 102 => ⟨S1600000x25x1, .f32⟩
  | 103 => ⟨S1600000x25, .f32⟩
  | 104 => ⟨S1600000x1, .f32⟩
  | 105 => ⟨S1600000x25, .f32⟩
  | 106 => ⟨S1600000x25, .f32⟩
  | 107 => ⟨S1600000x25, .f32⟩
  | 108 => ⟨S1600000x25x1, .f32⟩
  | 109 => ⟨S1600000x25, .f32⟩
  | 110 => ⟨S1600000x1, .f32⟩
  | 111 => ⟨S1600000x25, .f32⟩
  | 112 => ⟨S1600000x25, .f32⟩
  | 113 => ⟨S1600000x25, .f32⟩
  | 114 => ⟨S1600000x25, .f32⟩
  | 115 => ⟨S1600000x25x1, .f32⟩
  | 116 => ⟨S1600000x25, .f32⟩
  | 117 => ⟨S_, .f32⟩
  | 118 => ⟨S1600000x25, .f32⟩
  | 119 => ⟨S1600000x25, .i1⟩
  | 120 => ⟨S_, .f32⟩
  | 121 => ⟨S1600000x25, .f32⟩
  | 122 => ⟨S1600000x25, .f32⟩
  | 123 => ⟨S_, .f32⟩
  | 124 => ⟨S1600000x25, .f32⟩
  | 125 => ⟨S1600000x25, .f32⟩
  | 126 => ⟨S_, .f32⟩
  | 127 => ⟨S1600000, .f32⟩
  | _ => ⟨S50000, .i32⟩

abbrev hbmTy0_1 (i : Nat) : BufTy := match i % 128 with
  | 0 => ⟨S_, .f32⟩
  | 1 => ⟨S1600000, .f32⟩
  | 2 => ⟨S1600000, .f32⟩
  | 3 => ⟨S1600000x1, .f32⟩
  | 4 => ⟨S1600000x25, .f32⟩
  | 5 => ⟨S1600000x25, .f32⟩
  | 6 => ⟨S1600000x25, .f32⟩
  | 7 => ⟨S_, .f32⟩
  | 8 => ⟨S1600000, .f32⟩
  | 9 => ⟨S1600000x1, .f32⟩
  | 10 => ⟨S1600000x25, .f32⟩
  | 11 => ⟨S1600000x25, .f32⟩
  | 12 => ⟨S1600000x25x1, .f32⟩
  | 13 => ⟨S1600000x25, .f32⟩
  | 14 => ⟨S1600000x25, .f32⟩
  | 15 => ⟨S_, .f32⟩
  | 16 => ⟨S1600000, .f32⟩
  | 17 => ⟨S_, .f32⟩
  | 18 => ⟨S1600000, .f32⟩
  | 19 => ⟨S1600000, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000, .f32⟩
  | 29 => ⟨S1600000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S1600000, .f32⟩
  | 40 => ⟨S1600000, .f32⟩
  | 41 => ⟨S1600000, .f32⟩
  | 42 => ⟨S1600000, .f32⟩
  | 43 => ⟨S1600000, .f32⟩
  | 44 => ⟨S_, .f32⟩
  | 45 => ⟨S1600000, .f32⟩
  | 46 => ⟨S1600000, .f32⟩
  | 47 => ⟨S1600000, .f32⟩
  | 48 => ⟨S_, .f32⟩
  | 49 => ⟨S1600000, .f32⟩
  | 50 => ⟨S1600000, .f32⟩
  | 51 => ⟨S1600000, .f32⟩
  | 52 => ⟨S_, .f32⟩
  | 53 => ⟨S1600000, .f32⟩
  | 54 => ⟨S1600000, .f32⟩
  | 55 => ⟨S_, .f32⟩
  | 56 => ⟨S1600000, .f32⟩
  | 57 => ⟨S1600000, .f32⟩
  | 58 => ⟨S1600000, .f32⟩
  | 59 => ⟨S1600000, .f32⟩
  | 60 => ⟨S1600000, .f32⟩
  | 61 => ⟨S1600000, .f32⟩
  | 62 => ⟨S_, .f32⟩
  | 63 => ⟨S1600000, .f32⟩
  | 64 => ⟨S1600000, .f32⟩
  | 65 => ⟨S1600000, .f32⟩
  | 66 => ⟨S1600000, .f32⟩
  | 67 => ⟨S_, .f32⟩
  | 68 => ⟨S1600000, .f32⟩
  | 69 => ⟨S1600000, .f32⟩
  | 70 => ⟨S1600000, .f32⟩
  | 71 => ⟨S1600000, .f32⟩
  | 72 => ⟨S1600000, .f32⟩
  | 73 => ⟨S_, .f32⟩
  | 74 => ⟨S50000, .f32⟩
  | 75 => ⟨S1600000x1, .i32⟩
  | 76 => ⟨S50000, .f32⟩
  | 77 => ⟨S_, .f32⟩
  | 78 => ⟨S50000, .f32⟩
  | 79 => ⟨S50000, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_9 : Ref sig .tc := ⟨.hbm, 55, rfl⟩
abbrev main_v37 : Ref sig .tc := ⟨.hbm, 56, rfl⟩
abbrev main_v38 : Ref sig .tc := ⟨.hbm, 57, rfl⟩
abbrev main_cst_10 : Ref sig .tc := ⟨.hbm, 58, rfl⟩
abbrev main_v39 : Ref sig .tc := ⟨.hbm, 59, rfl⟩
abbrev main_v40 : Ref sig .tc := ⟨.hbm, 60, rfl⟩
abbrev main_cst_11 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_12 : Ref sig .tc := ⟨.hbm, 65, rfl⟩
abbrev main_v44 : Ref sig .tc := ⟨.hbm, 66, rfl⟩
abbrev main_v45 : Ref sig .tc := ⟨.hbm, 67, rfl⟩
abbrev main_c_13 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_14 : Ref sig .tc := ⟨.hbm, 74, rfl⟩
abbrev main_v51 : Ref sig .tc := ⟨.hbm, 75, rfl⟩
abbrev main_v52 : Ref sig .tc := ⟨.hbm, 76, rfl⟩
abbrev main_c_15 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_16 : Ref sig .tc := ⟨.hbm, 83, rfl⟩
abbrev main_v58 : Ref sig .tc := ⟨.hbm, 84, rfl⟩
abbrev main_v59 : Ref sig .tc := ⟨.hbm, 85, rfl⟩
abbrev main_c_17 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_18 : Ref sig .tc := ⟨.hbm, 90, rfl⟩
abbrev main_v63 : Ref sig .tc := ⟨.hbm, 91, rfl⟩
abbrev main_v64 : Ref sig .tc := ⟨.hbm, 92, rfl⟩
abbrev main_c_19 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_20 : Ref sig .tc := ⟨.hbm, 117, rfl⟩
abbrev main_v88 : Ref sig .tc := ⟨.hbm, 118, rfl⟩
abbrev main_v89 : Ref sig .tc := ⟨.hbm, 119, rfl⟩
abbrev main_cst_21 : Ref sig .tc := ⟨.hbm, 120, rfl⟩
abbrev main_v90 : Ref sig .tc := ⟨.hbm, 121, rfl⟩
abbrev main_v91 : Ref sig .tc := ⟨.hbm, 122, rfl⟩
abbrev main_cst_22 : Ref sig .tc := ⟨.hbm, 123, rfl⟩
abbrev main_call0_v0 : Ref sig .tc := ⟨.hbm, 124, rfl⟩
abbrev main_v92 : Ref sig .tc := ⟨.hbm, 125, rfl⟩
abbrev main_cst_23 : Ref sig .tc := ⟨.hbm, 126, rfl⟩
abbrev main_v93 : Ref sig .tc := ⟨.hbm, 127, rfl⟩
abbrev main_cst_24 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_25 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_cst_26 : Ref sig .tc := ⟨.hbm, 143, rfl⟩
abbrev main_v107 : Ref sig .tc := ⟨.hbm, 144, rfl⟩
abbrev main_cst_27 : Ref sig .tc := ⟨.hbm, 145, rfl⟩
abbrev main_v108 : Ref sig .tc := ⟨.hbm, 146, rfl⟩
abbrev main_v109 : Ref sig .tc := ⟨.hbm, 147, rfl⟩
abbrev main_c_28 : Ref sig .tc := ⟨.hbm, 148, rfl⟩
abbrev main_v110 : Ref sig .tc := ⟨.hbm, 149, rfl⟩
abbrev main_v111 : Ref sig .tc := ⟨.hbm, 150, rfl⟩
abbrev main_c_29 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_c_30 : Ref sig .tc := ⟨.hbm, 158, rfl⟩
abbrev main_v118 : Ref sig .tc := ⟨.hbm, 159, rfl⟩
abbrev main_v119 : Ref sig .tc := ⟨.hbm, 160, rfl⟩
abbrev main_c_31 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_cst_32 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_cst_33 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_cst_34 : Ref sig .tc := ⟨.hbm, 180, rfl⟩
abbrev main_v136 : Ref sig .tc := ⟨.hbm, 181, rfl⟩
abbrev main_v137 : Ref sig .tc := ⟨.hbm, 182, rfl⟩
abbrev main_cst_35 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_cst_36 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_cst_37 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_cst_38 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_cst_39 : Ref sig .tc := ⟨.hbm, 205, rfl⟩
abbrev main_v156 : Ref sig .tc := ⟨.hbm, 206, rfl⟩
abbrev main_v157 : Ref sig .tc := ⟨.hbm, 207, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000 : S_.BroadcastsInDim S50000 (![] : Fin 0 → Fin S50000.rank)
  concatenates_S1600000x1_S1600000x1_S1600000x2_d1 : Shape.Concatenates [S1600000x1, S1600000x1] S1600000x2 1
  shapeCasts_S1600000x5x5x3_S1600000x25x3 : S1600000x5x5x3.ShapeCasts S1600000x25x3
  slices_S1600000x25x3_S1600000x25x1_0_0_1 : S1600000x25x3.Slices ![0, 0, 1] S1600000x25x1
  shapeCasts_S1600000x25x1_S1600000x25 : S1600000x25x1.ShapeCasts S1600000x25
  bcast_S1600000x1_S1600000x25_0_1 : S1600000x1.BroadcastsInDim S1600000x25 (![0, 1] : Fin 2 → Fin S1600000x25.rank)
  slices_S1600000x25x3_S1600000x25x1_0_0_2 : S1600000x25x3.Slices ![0, 0, 2] S1600000x25x1
  slices_S1600000x25x3_S1600000x25x1_0_0_0 : S1600000x25x3.Slices ![0, 0, 0] S1600000x25x1
  bcast_S_S1600000x25 : S_.BroadcastsInDim S1600000x25 (![] : Fin 0 → Fin S1600000x25.rank)
  reducesTo_S1600000x25_S1600000_d1 : S1600000x25.ReducesTo [1] S1600000
  h_S_ : 0 < S_.numel
  gather_S50000_S1600000x1_S1600000_n_0_n_n_0_1_1_wf : GatherDims.WF S50000 S1600000x1 S1600000 [] [0] [] [0] [] 1 ![1]
  gather_S95_S1600000x1_S1600000_n_0_n_n_0_1_1_wf : GatherDims.WF S95 S1600000x1 S1600000 [] [0] [] [0] [] 1 ![1]
  scatter_S50000_S1600000x1_S1600000_n_0_0_1_wf : ScatterDims.WF S50000 S1600000x1 S1600000 [] [0] [0] 1
  gather_S95x95x5x5x3_S1600000x2_S1600000x5x5x3_123_01_n_n_01_1_11553_wf : GatherDims.WF S95x95x5x5x3 S1600000x2 S1600000x5x5x3 [1, 2, 3] [0, 1] [] [0, 1] [] 1 ![1, 1, 5, 5, 3]

variable [Facts₀]

def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S95_S1600000x1_S1600000_n_0_n_n_0_1_1 : GatherDims S95 S1600000x1 S1600000 where
  offsetDims := []
  collapsedSliceDims := [0]
  operandBatchingDims := []
  startIndicesBatchingDims := []
  startIndexMap := [0]
  indexVectorDim := 1
  sliceSizes := ![1]
  wf := gather_S95_S1600000x1_S1600000_n_0_n_n_0_1_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S95x95x5x5x3_S1600000x2_S1600000x5x5x3_123_01_n_n_01_1_11553 : GatherDims S95x95x5x5x3 S1600000x2 S1600000x5x5x3 where
  offsetDims := [1, 2, 3]
  collapsedSliceDims := [0, 1]
  operandBatchingDims := []
  startIndicesBatchingDims := []
  startIndexMap := [0, 1]
  indexVectorDim := 1
  sliceSizes := ![1, 1, 5, 5, 3]
  wf := gather_S95x95x5x5x3_S1600000x2_S1600000x5x5x3_123_01_n_n_01_1_11553_wf

class Facts : Prop extends Facts₀ where

variable [Facts]
-- ==== Proof.KFrame.lean ====
/-
  The frame of the one-launch program: @main is three stretches of host operations (the gathers and the
  coordination numbers, the flattened table lookup, the five packed rows), the launch over 100 grid points, and
  eight host operations after it (the scatter-add of the per-pair energies). At every grid point the body reads
  five rows of the [5, 16000] block and three [25, 16000] slabs of the [75, 16000] block and stores one
  [1, 16000] row covering its output block, so each output block after the body is one function of the two
  input blocks; the arguments are written by no host operation, before or after the launch.
-/
import proofs.«431380_j22763326669101_3_alg».proof.Proof.Gen.Kernel.Launch
import proofs.«431380_j22763326669101_3_alg».proof.Proof.Gen.Kernel.Skeleton
import proofs.«431380_j22763326669101_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the launch -/

/-- The TensorCore buffers of core `c` when the launch is entered: the launch contents after the three host stretches. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

set_option maxHeartbeats 4000000 in
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host stretches, the launch, the host tail: it reduces to the launch continued by the tail. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The host tail touches the launch's arrays and the buffers beside them only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes none of the launch's three arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

set_option maxHeartbeats 4000000 in
/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation after the region writes argument 4: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation after the region writes argument 5: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation after the region writes argument 6: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame from a run to the library's post -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c))⟩) h

/-! ## The body's rectangles: rows 0..4 of the packed block, the three slabs of the table block, the output row -/

abbrev r0_0 : Rect S5x16000 := Rect.unit (s := S5x16000) ![0, 0] S1x16000.size Facts₀.inb_S5x16000_S1x16000_0_0
abbrev r0_1 : Rect S5x16000 := Rect.unit (s := S5x16000) ![1, 0] S1x16000.size Facts₀.inb_S5x16000_S1x16000_1_0
abbrev r0_2 : Rect S5x16000 := Rect.unit (s := S5x16000) ![2, 0] S1x16000.size Facts₀.inb_S5x16000_S1x16000_2_0
abbrev r0_3 : Rect S5x16000 := Rect.unit (s := S5x16000) ![3, 0] S1x16000.size Facts₀.inb_S5x16000_S1x16000_3_0
abbrev r0_4 : Rect S5x16000 := Rect.unit (s := S5x16000) ![4, 0] S1x16000.size Facts₀.inb_S5x16000_S1x16000_4_0
abbrev r0_5 : Rect S75x16000 := Rect.unit (s := S75x16000) ![0, 0] S25x16000.size Facts₀.inb_S75x16000_S25x16000_0_0
abbrev r0_6 : Rect S75x16000 := Rect.unit (s := S75x16000) ![25, 0] S25x16000.size Facts₀.inb_S75x16000_S25x16000_25_0
abbrev r0_7 : Rect S75x16000 := Rect.unit (s := S75x16000) ![50, 0] S25x16000.size Facts₀.inb_S75x16000_S25x16000_50_0
abbrev r0_8 : Rect S1x16000 := Rect.unit (s := S1x16000) ![0, 0] S1x16000.size Facts₀.inb_S1x16000_S1x16000_0_0

/-- The output block after the body, from the two input blocks: its one store, the energy row. -/
def out0_2 (x0 : Vec F S5x16000 .f32) (x1 : Vec F S75x16000 .f32) : Vec F S1x16000 .f32 :=
  View.canon [⟨r0_8, k0_pay1 (k0_pay2 (View.ld x0 r0_0)) (k0_pay3 (View.ld x0 r0_3)) (k0_pay4 (View.ld x0 r0_4))
    (k0_pay7 (View.ld x0 r0_1) (View.ld x0 r0_2) (View.ld x1 r0_5) (View.ld x1 r0_6) (View.ld x1 r0_7))
    (k0_pay8 (View.ld x0 r0_1) (View.ld x0 r0_2) (View.ld x1 r0_5) (View.ld x1 r0_6) (View.ld x1 r0_7))⟩]

/-- The one store covers the output block. -/
theorem cover0_2 (p0 : Vec F S1x16000 .f32) (y : S1x16000.Idx) :
    ∃ pc ∈ ([⟨r0_8, p0⟩] : List (View.Piece (Elt F) S1x16000 .f32)), y ∈ pc.1.set :=
  View.cover_of_tiled [⟨r0_8, p0⟩] S1x16000.size (by rfl) y

/-! ## The body's triple -/

set_option maxHeartbeats 4000000 in
theorem sound_kernel (c : Dev nD) (E : Set ℕ) (i : grid0.Coords) (arg1 : Memref sig .tc .vmem S5x16000 .f32) (harg1 : arg1.IsWhole) (arg2 : Memref sig .tc .vmem S75x16000 .f32) (harg2 : arg2.IsWhole) (arg3 : Memref sig .tc .vmem S1x16000 .f32) (harg3 : arg3.IsWhole)
    (x0 : Vec F S5x16000 .f32) (x1 : Vec F S75x16000 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__edisp_kernel i arg1 harg1 arg2 harg2 arg3 harg3) K := by
  simp only [cc0__edisp_kernel_eq_skeleton]; unfold cc0__edisp_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

/-! ## The launch's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; each array of the launch ends at what the proof data gives, every
    other buffer as the host tail leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves its seven arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Hand

end
-- ==== Proof.KIFrame.lean ====
/-
  The frame of the one-launch program: @main is three stretches of host operations (the gathers and the
  coordination numbers, the flattened table lookup, the five packed rows), the launch over 100 grid points, and
  eight host operations after it (the scatter-add of the per-pair energies). At every grid point the body reads
  five rows of the [5, 16000] block and three [25, 16000] slabs of the [75, 16000] block and stores one
  [1, 16000] row covering its output block, so each output block after the body is one function of the two
  input blocks; the arguments are written by no host operation, before or after the launch.
-/
import proofs.«431380_j22763326669101_3_alg».proof.Proof.Gen.KernelIdeal.Launch
import proofs.«431380_j22763326669101_3_alg».proof.Proof.Gen.KernelIdeal.Skeleton
import proofs.«431380_j22763326669101_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the launch -/

/-- The TensorCore buffers of core `c` when the launch is entered: the launch contents after the three host stretches. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

set_option maxHeartbeats 4000000 in
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host stretches, the launch, the host tail: it reduces to the launch continued by the tail. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The host tail touches the launch's arrays and the buffers beside them only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes none of the launch's three arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

set_option maxHeartbeats 4000000 in
/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation after the region writes argument 4: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation after the region writes argument 5: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation after the region writes argument 6: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame from a run to the library's post -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c))⟩) h

/-! ## The body's rectangles: rows 0..4 of the packed block, the three slabs of the table block, the output row -/

abbrev r0_0 : Rect S5x16000 := Rect.unit (s := S5x16000) ![0, 0] S1x16000.size Facts₀.inb_S5x16000_S1x16000_0_0
abbrev r0_1 : Rect S5x16000 := Rect.unit (s := S5x16000) ![1, 0] S1x16000.size Facts₀.inb_S5x16000_S1x16000_1_0
abbrev r0_2 : Rect S5x16000 := Rect.unit (s := S5x16000) ![2, 0] S1x16000.size Facts₀.inb_S5x16000_S1x16000_2_0
abbrev r0_3 : Rect S5x16000 := Rect.unit (s := S5x16000) ![3, 0] S1x16000.size Facts₀.inb_S5x16000_S1x16000_3_0
abbrev r0_4 : Rect S5x16000 := Rect.unit (s := S5x16000) ![4, 0] S1x16000.size Facts₀.inb_S5x16000_S1x16000_4_0
abbrev r0_5 : Rect S75x16000 := Rect.unit (s := S75x16000) ![0, 0] S25x16000.size Facts₀.inb_S75x16000_S25x16000_0_0
abbrev r0_6 : Rect S75x16000 := Rect.unit (s := S75x16000) ![25, 0] S25x16000.size Facts₀.inb_S75x16000_S25x16000_25_0
abbrev r0_7 : Rect S75x16000 := Rect.unit (s := S75x16000) ![50, 0] S25x16000.size Facts₀.inb_S75x16000_S25x16000_50_0
abbrev r0_8 : Rect S1x16000 := Rect.unit (s := S1x16000) ![0, 0] S1x16000.size Facts₀.inb_S1x16000_S1x16000_0_0

/-- The output block after the body, from the two input blocks: its one store, the energy row. -/
def out0_2 (x0 : Vec F S5x16000 .f32) (x1 : Vec F S75x16000 .f32) : Vec F S1x16000 .f32 :=
  View.canon [⟨r0_8, k0_pay1 (k0_pay2 (View.ld x0 r0_0)) (k0_pay3 (View.ld x0 r0_3)) (k0_pay4 (View.ld x0 r0_4))
    (k0_pay7 (View.ld x0 r0_1) (View.ld x0 r0_2) (View.ld x1 r0_5) (View.ld x1 r0_6) (View.ld x1 r0_7))
    (k0_pay8 (View.ld x0 r0_1) (View.ld x0 r0_2) (View.ld x1 r0_5) (View.ld x1 r0_6) (View.ld x1 r0_7))⟩]

/-- The one store covers the output block. -/
theorem cover0_2 (p0 : Vec F S1x16000 .f32) (y : S1x16000.Idx) :
    ∃ pc ∈ ([⟨r0_8, p0⟩] : List (View.Piece (Elt F) S1x16000 .f32)), y ∈ pc.1.set :=
  View.cover_of_tiled [⟨r0_8, p0⟩] S1x16000.size (by rfl) y

/-! ## The body's triple -/

set_option maxHeartbeats 4000000 in
theorem sound_kernel (c : Dev nD) (E : Set ℕ) (i : grid0.Coords) (arg1 : Memref sig .tc .vmem S5x16000 .f32) (harg1 : arg1.IsWhole) (arg2 : Memref sig .tc .vmem S75x16000 .f32) (harg2 : arg2.IsWhole) (arg3 : Memref sig .tc .vmem S1x16000 .f32) (harg3 : arg3.IsWhole)
    (x0 : Vec F S5x16000 .f32) (x1 : Vec F S75x16000 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__edisp_kernel i arg1 harg1 arg2 harg2 arg3 harg3) K := by
  simp only [cc0__edisp_kernel_eq_skeleton]; unfold cc0__edisp_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

/-! ## The launch's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; each array of the launch ends at what the proof data gives, every
    other buffer as the host tail leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves its seven arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Hand

end
-- ==== Proof.RefRun.lean ====
/-
  The reference's run: every weakly fair execution of its @main terminates with the result buffer at the last
  stage (`val_main_v157`: one times the scatter-add of the per-pair energies) of the seven arguments' launch contents,
  and the arguments unchanged. The fold of the 201 operations, read at the result buffer, is the composition of the
  stages: each operation's result is its function of the buffers it reads, and those are earlier stages.
-/
import proofs.«431380_j22763326669101_3_alg».proof.Proof.RunP
import proofs.«431380_j22763326669101_3_alg».proof.Proof.ReadP

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

set_option maxRecDepth 8192 in
set_option maxHeartbeats 80400000 in
/-- The fold of the operations at the result buffer is the last stage of the arguments. -/
theorem result_eq (m : (ℓ : Loc nD τ sig) → Buf (Elt F) ℓ) (c : Dev nD) :
    after (ops (F := F)) (launchContents m c) (Proc.devRef .tc main_v157)
      = val_main_v157 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  after_results_simp <;> rfl

/-- The run, with the result named by its last stage. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v157) = val_main_v157 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v157).trans (result_eq m c),
      (h c main_arg0).trans (kept_main_arg0 m c), (h c main_arg1).trans (kept_main_arg1 m c),
      (h c main_arg2).trans (kept_main_arg2 m c), (h c main_arg3).trans (kept_main_arg3 m c),
      (h c main_arg4).trans (kept_main_arg4 m c), (h c main_arg5).trans (kept_main_arg5 m c),
      (h c main_arg6).trans (kept_main_arg6 m c)⟩) (run_fold m ρ)

end Cert.ReferenceIdeal.RefRun

end
-- ==== Proof.Spec.lean ====
/-
  The arithmetic the equivalence rests on, over the extended reals and with no program in sight.

  * A value "is real" when it is the coercion of a real number. Sums, differences, products, maxima and
    exponentials of reals are real; so is a finite sum and a fold of `max` over a nonempty family from `⊥`.
  * The logistic damping `1 / (1 + exp (-x))` is real for EVERY extended real `x` (at `x = ⊤` it is `1`, at
    `x = ⊥` it is `1 / ⊤ = 0`), so a coordination number, a finite sum of dampings, is real whatever the distances.
  * The softmax-weighted mean of 25 reference values can be normalised before or after the weighted sum:
    with real logits `l`, a real shift `m` and real values `c`,
    `(∑ exp (l k - m) · c k) / (∑ exp (l k - m)) = ∑ (exp (l k - m) / ∑ exp (l j - m)) · c k`,
    because every term is real and the normaliser, a sum of exponentials of reals, is positive.
-/
import Idealize.ShloMosaic.PureOps.Ideal
import Idealize.ShloMosaic.PureOps.Ideal.Laws

noncomputable section

namespace Cert.D3

open Idealize.ShloMosaic

/-- An extended real that is a real number. -/
def IsReal (x : EReal) : Prop := ∃ r : ℝ, x = (r : EReal)

theorem IsReal.coe (r : ℝ) : IsReal (r : EReal) := ⟨r, rfl⟩
theorem IsReal.zero : IsReal (0 : EReal) := ⟨0, rfl⟩
theorem IsReal.one : IsReal (1 : EReal) := ⟨1, rfl⟩
theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.sub {x y : EReal} (hx : IsReal x) (hy : IsReal y) : IsReal (x - y) := by
  obtain ⟨a, rfl⟩ := hx
  obtain ⟨b, rfl⟩ := hy
  exact ⟨a - b, (EReal.coe_sub a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.neg {x : EReal} (hx : IsReal x) : IsReal (-x) := by
  obtain ⟨a, rfl⟩ := hx
  exact ⟨-a, (EReal.coe_neg a).symm⟩
theorem IsReal.max {x y : EReal} (hx : IsReal x) (hy : IsReal y) : IsReal (max x y) := by
  obtain ⟨a, rfl⟩ := hx
  obtain ⟨b, rfl⟩ := hy
  -- the larger of two reals is one of them
  rcases le_total (a : EReal) (b : EReal) with hab | hab
  · rw [max_eq_right hab]; exact ⟨b, rfl⟩
  · rw [max_eq_left hab]; exact ⟨a, rfl⟩
theorem IsReal.exp {x : EReal} (hx : IsReal x) : IsReal (Ideal.exp x) := by
  obtain ⟨a, rfl⟩ := hx
  exact ⟨Real.exp a, Ideal.exp_coe a⟩
theorem IsReal.ne_top {x : EReal} (hx : IsReal x) : x ≠ ⊤ := by
  obtain ⟨a, rfl⟩ := hx
  exact EReal.coe_ne_top a
theorem IsReal.ne_bot {x : EReal} (hx : IsReal x) : x ≠ ⊥ := by
  obtain ⟨a, rfl⟩ := hx
  exact EReal.coe_ne_bot a
theorem isReal_of_ne {x : EReal} (h1 : x ≠ ⊤) (h2 : x ≠ ⊥) : IsReal x := by
  exact ⟨x.toReal, (EReal.coe_toReal h1 h2).symm⟩
/-- `|x| < +∞`, the form the printed finiteness test takes, says `x` is real. -/
theorem isReal_of_abs_lt_top {x : EReal} (h : max x (-x) < ⊤) : IsReal x := by
  -- both x and -x lie below +∞, so x is neither +∞ nor -∞
  have h1 : x < ⊤ := lt_of_le_of_lt (le_max_left _ _) h
  have h2 : -x < ⊤ := lt_of_le_of_lt (le_max_right _ _) h
  refine isReal_of_ne h1.ne ?_
  rintro rfl
  rw [EReal.neg_bot] at h2
  exact lt_irrefl _ h2

theorem isReal_sum {ι : Type} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- A fold of `max` over a finite family of reals, from `⊥` or from a real, is `⊥` or real, and it is real as soon
    as the family has a member: the first member taken in is real, and the larger of a real and `⊥` or a real is real. -/
theorem fold_max_bot_or_isReal {ι : Type} (init : EReal) (hinit : init = ⊥ ∨ IsReal init) (f : ι → EReal)
    (h : ∀ k, IsReal (f k)) (s : Finset ι) :
    (s.fold max init f = ⊥ ∨ IsReal (s.fold max init f)) ∧ (s.Nonempty → IsReal (s.fold max init f)) := by
  classical
  induction s using Finset.induction_on with
  | empty =>
    rw [Finset.fold_empty]
    exact ⟨hinit, fun hne => absurd hne Finset.not_nonempty_empty⟩
  | insert a s ha ih =>
    have key : IsReal ((insert a s).fold max init f) := by
      rw [Finset.fold_insert ha]
      rcases ih.1 with h0 | h0
      · rw [h0, max_eq_left bot_le]; exact h a
      · exact (h a).max h0
    exact ⟨Or.inr key, fun _ => key⟩

/-- A fold of `max` from `⊥` (or from a real) over a nonempty `Fin`-family of reals is real. -/
theorem isReal_fold_max {n : Nat} (hn : 0 < n) (init : EReal) (hinit : init = ⊥ ∨ IsReal init) (f : Fin n → EReal)
    (h : ∀ k, IsReal (f k)) : IsReal ((Finset.univ : Finset (Fin n)).fold max init f) := by
  exact (fold_max_bot_or_isReal init hinit f h Finset.univ).2 ⟨⟨0, hn⟩, Finset.mem_univ _⟩

/-! ## The constants of the two programs -/

theorem ofBits_one : Ideal.ofBits .f32 0x3F800000#32 = 1 := by
  rw [show (1 : EReal) = ((1 : ℝ) : EReal) from rfl]
  simp [Ideal.ofBits, Ideal.ieee, -EReal.coe_mul]
  norm_num
theorem ofBits_neg_inf : Ideal.ofBits .f32 0xFF800000#32 = ⊥ := by
  simp [Ideal.ofBits, Ideal.ieee]
/-- `-16.0` is the negation of `16.0`. -/
theorem ofBits_neg_sixteen : Ideal.ofBits .f32 0xC1800000#32 = -Ideal.ofBits .f32 0x41800000#32 := by
  simp [Ideal.ofBits, Ideal.ieee, -EReal.coe_mul, -EReal.coe_neg]
  norm_num
/-- `-4.0` and `-1e10` (the fill of the masked logits) are reals. -/
theorem isReal_neg_four : IsReal (Ideal.ofBits .f32 0xC0800000#32) := by
  unfold IsReal
  simp [Ideal.ofBits, Ideal.ieee, -EReal.coe_mul, -EReal.coe_neg]
theorem isReal_fill : IsReal (Ideal.ofBits .f32 0xD01502F9#32) := by
  unfold IsReal
  simp [Ideal.ofBits, Ideal.ieee, -EReal.coe_mul, -EReal.coe_neg]

/-! ## The damping -/

/-- `-(a · y) = (-a) · y` on the extended reals: the two programs negate before or after scaling by 16. -/
theorem neg_mul_eq_neg_mul' (a y : EReal) : -(a * y) = (-a) * y := by
  exact (EReal.neg_mul a y).symm

/-- The logistic damping is a real number at every extended real. -/
theorem damp_isReal (x : EReal) : IsReal (Ideal.div 1 (1 + Ideal.exp (-x))) := by
  -- the expression is the logistic function, whose three values are 0, a real, and 1
  change IsReal (Ideal.logistic x)
  induction x using EReal.rec with
  | bot => rw [Ideal.logistic_bot]; exact IsReal.zero
  | coe r => rw [Ideal.logistic_coe]; exact IsReal.coe _
  | top => rw [Ideal.logistic_top]; exact IsReal.one

/-! ## The softmax-weighted mean -/

/-- The coercion of the reals into the extended reals goes through a finite sum. -/
theorem coe_finset_sum' {ι : Type} (s : Finset ι) (g : ι → ℝ) :
    (∑ i ∈ s, (g i : EReal)) = ((∑ i ∈ s, g i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- Normalising before or after the weighted sum gives one value, the logits, the shift and the values being real. -/
theorem softmax_mean_eq (c l : Fin 25 → EReal) (m : EReal) (hc : ∀ k, IsReal (c k)) (hl : ∀ k, IsReal (l k)) (hm : IsReal m) :
    Ideal.div (∑ k, Ideal.exp (l k - m) * c k) (∑ k, Ideal.exp (l k - m))
      = ∑ k, Ideal.div (Ideal.exp (l k - m)) (∑ j, Ideal.exp (l j - m)) * c k := by
  -- real witnesses for the values, the logits and the shift
  choose cr hcr using hc
  choose lr hlr using hl
  obtain ⟨mr, rfl⟩ := hm
  obtain rfl : c = fun k => (cr k : EReal) := funext hcr
  obtain rfl : l = fun k => (lr k : EReal) := funext hlr
  -- every exponential is the coercion of a real exponential
  have he : ∀ k, Ideal.exp ((lr k : EReal) - (mr : EReal)) = ((Real.exp (lr k - mr) : ℝ) : EReal) := fun k => by
    rw [← EReal.coe_sub, Ideal.exp_coe]
  -- the normaliser is a positive real
  have hS : (0 : ℝ) < ∑ k : Fin 25, Real.exp (lr k - mr) :=
    Finset.sum_pos (fun k _ => Real.exp_pos _) ⟨⟨0, by norm_num⟩, Finset.mem_univ _⟩
  simp only [he, coe_finset_sum', ← EReal.coe_mul, Ideal.div_coe hS.ne']
  -- an identity of real numbers: distribute the reciprocal of the normaliser over the sum
  rw [EReal.coe_eq_coe_iff, Finset.sum_mul]
  exact Finset.sum_congr rfl fun k _ => by ring

end Cert.D3

end
-- ==== Proof.PairFn.lean ====
/-
  The two programs' arithmetic for ONE pair of atoms, as functions of extended reals, and their agreement.

  For a pair, 25 reference points carry a value `c k` and two coordination numbers `cni k`, `cnj k`; the pair's own
  coordination numbers are `nci`, `ncj`. The logit of point `k` is `-4 · ((cni k - nci)² + (cnj k - ncj)²)` where
  `c k > 0` and the fill `-1e10` elsewhere; the weights are `exp (logit - max logit)`. The kernel divides the weighted
  sum of the values by the sum of the weights; the reference normalises each weight first and then sums. With every
  entry real the two are one number (`softmax_mean_eq`). What follows the mean — the eighth-order coefficient,
  the damping radius and the two damped terms — is the same chain of operations in both programs (`energy`).
-/
import proofs.«431380_j22763326669101_3_alg».proof.Proof.Spec
import Idealize.ShloMosaic.Lib.ValueIdx

noncomputable section

namespace Cert.D3

open Idealize.ShloMosaic

/-- `x > 0` as the programs test it. -/
abbrev gtZero (x : EReal) : BitVec 1 := Ideal.cmp .ogt x (Ideal.ofBits .f32 0x00000000#32)

/-- The logit of one reference point. -/
def logit (c cni cnj nci ncj : EReal) : EReal :=
  Scalar.select (gtZero c)
    (Ideal.ofBits .f32 0xC0800000#32 * ((cni - nci) * (cni - nci) + (cnj - ncj) * (cnj - ncj)))
    (Ideal.ofBits .f32 0xD01502F9#32)

/-- The largest of 25 logits, folded from `-∞`. -/
def logitMax (l : Fin 25 → EReal) : EReal :=
  (Finset.univ : Finset (Fin 25)).fold max (Ideal.ofBits .f32 0xFF800000#32) l

/-- The kernel's interpolated coefficient from the logits `l` and the shift `m`: the weighted sum of the values over
    the sum of the weights. -/
def meanK (c l : Fin 25 → EReal) (m : EReal) : EReal :=
  Ideal.div (∑ k, Ideal.exp (l k - m) * c k) (∑ k, Ideal.exp (l k - m))

/-- The reference's: each weight normalised first, then the weighted sum. -/
def meanR (c l : Fin 25 → EReal) (m : EReal) : EReal :=
  ∑ k, Ideal.div (Ideal.exp (l k - m)) (∑ j, Ideal.exp (l j - m)) * c k

/-- The kernel's coefficient of a pair. -/
def c6K (c cni cnj : Fin 25 → EReal) (nci ncj : EReal) : EReal :=
  meanK c (fun k => logit (c k) (cni k) (cnj k) nci ncj) (logitMax fun k => logit (c k) (cni k) (cnj k) nci ncj)

/-- The reference's coefficient of a pair; its maximum is taken once more against `-∞`. -/
def c6R (c cni cnj : Fin 25 → EReal) (nci ncj : EReal) : EReal :=
  meanR c (fun k => logit (c k) (cni k) (cnj k) nci ncj)
    (max (Ideal.ofBits .f32 0xFF800000#32) (logitMax fun k => logit (c k) (cni k) (cnj k) nci ncj))

/-- What both programs compute from the distance `d`, the coefficient `c6` and the two expectation values `r2i`, `r2j`:
    `c8 = 3·c6·r2i·r2j`, the radius `R = a1·√(c8/(c6+ε)+ε)+a2`, and `-½·c6/(d⁶+R⁶) + (-s8/2)·c8/(d⁸+R⁸)`, each power a
    chain of products in the order the programs multiply. -/
def energy (d c6 r2i r2j : EReal) : EReal :=
  let c8 := Ideal.ofBits .f32 0x40400000#32 * c6 * r2i * r2j
  let d2 := d * d
  let d4 := d2 * d2
  let d6 := d4 * d2
  let d8 := d6 * d2
  let R := Ideal.ofBits .f32 0x3EAD4FDF#32
      * Ideal.sqrt (Ideal.div c8 (c6 + Ideal.ofBits .f32 0x2EDBE6FF#32) + Ideal.ofBits .f32 0x2EDBE6FF#32)
    + Ideal.ofBits .f32 0x40388312#32
  let R2 := R * R
  let R4 := R2 * R2
  let R6 := R4 * R2
  let R8 := R6 * R2
  Ideal.div (Ideal.ofBits .f32 0xBF000000#32 * c6) (d6 + R6) + Ideal.div (Ideal.ofBits .f32 0xBEEAC711#32 * c8) (d8 + R8)

/-- Row `k` of slab `s` of a 75-row table: rows `0..24` the values, `25..49` and `50..74` the two coordination numbers. -/
abbrev slab (s : Fin 3) (k : Fin 25) : Fin 75 := ⟨25 * s.val + k.val, by omega⟩

/-- The kernel's energy of the pair in column `p`, from a packed `[5, P]` array `X` (distance, the pair's two
    coordination numbers, the two expectation values) and a `[75, P]` table `T` (three slabs of 25 rows). -/
def pairE {P : Nat} (X : (⟨2, ![5, P]⟩ : Shape).Idx → EReal) (T : (⟨2, ![75, P]⟩ : Shape).Idx → EReal) (p : Fin P) : EReal :=
  energy (X (ValueIdx.ix2 0 p))
    (c6K (fun k => T (ValueIdx.ix2 (slab 0 k) p)) (fun k => T (ValueIdx.ix2 (slab 1 k) p)) (fun k => T (ValueIdx.ix2 (slab 2 k) p))
      (X (ValueIdx.ix2 1 p)) (X (ValueIdx.ix2 2 p)))
    (X (ValueIdx.ix2 3 p)) (X (ValueIdx.ix2 4 p))

theorem logit_isReal {c cni cnj nci ncj : EReal} (h1 : IsReal cni) (h2 : IsReal cnj) (h3 : IsReal nci) (h4 : IsReal ncj) :
    IsReal (logit c cni cnj nci ncj) := by
  unfold logit Scalar.select
  split
  · exact isReal_neg_four.mul (((h1.sub h3).mul (h1.sub h3)).add ((h2.sub h4).mul (h2.sub h4)))
  · exact isReal_fill

theorem logitMax_isReal {l : Fin 25 → EReal} (h : ∀ k, IsReal (l k)) : IsReal (logitMax l) :=
  isReal_fold_max (by decide) _ (Or.inl ofBits_neg_inf) l h

/-- With real table entries and real coordination numbers the two coefficients are one number. -/
theorem c6K_eq_c6R (c cni cnj : Fin 25 → EReal) (nci ncj : EReal) (hc : ∀ k, IsReal (c k)) (hi : ∀ k, IsReal (cni k))
    (hj : ∀ k, IsReal (cnj k)) (hni : IsReal nci) (hnj : IsReal ncj) : c6K c cni cnj nci ncj = c6R c cni cnj nci ncj := by
  have hl : ∀ k, IsReal (logit (c k) (cni k) (cnj k) nci ncj) := fun k => logit_isReal (hi k) (hj k) hni hnj
  have hm := logitMax_isReal hl
  unfold c6K c6R meanK meanR
  rw [ofBits_neg_inf, max_eq_right bot_le]
  exact softmax_mean_eq c _ _ hc hl hm

end Cert.D3

end
-- ==== Proof.KIPayload.lean ====
/-
  The body's arithmetic read at one column.

  The output block's one store holds the energy row: entry `(0, q)` depends on column `q` of the two input blocks only —
  rows 0..4 of the packed block (the distance, the pair's two coordination numbers, the two expectation values) and
  the 75 rows of the table block (three slabs of 25: the values and the two coordination-number grids). The lane
  maximum and the two lane sums run over the 25 rows of a slab; a row broadcast over 25 rows reads row 0; everything
  else is pointwise. Read at `(0, q)` the payload is `pairE`: `energy` of the kernel's coefficient `c6K`.
-/
import proofs.«431380_j22763326669101_3_alg».proof.Proof.KIFrame
import proofs.«431380_j22763326669101_3_alg».proof.Proof.PairFn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KPayload

open Cert.KernelIdeal Cert.KernelIdeal.Gen Cert.KernelIdeal.Hand
open Cert.KernelIdeal.Facts₀ Cert.KernelIdeal.Facts
open Idealize.ShloMosaic Idealize.ShloMosaic.TcCoe Idealize.ShloMosaic.ValueIdx
open Cert.D3

/-! ## Loads through the body's rectangles -/

/-- Row `r` of the packed block, loaded as a one-row block and read at `(u, q)`, is the block at `(r, q)`. -/
theorem ld_row (X : Vec Ideal S5x16000 .f32) (r : Nat)
    (inb : ∀ a, (![r, 0] : Fin 2 → Nat) a + S1x16000.size a ≤ S5x16000.size a)
    (u : Fin 1) (q : Fin 16000) (p : Fin 5) (hp : p.val = r) :
    View.ld (Val := Elt Ideal) X (Rect.unit (s := S5x16000) ![r, 0] S1x16000.size inb) (ix2 u q) = X (ix2 p q) := by
  show X _ = X _
  refine congrArg X (funext fun a => Fin.ext ?_)
  match a with
  | ⟨0, _⟩ =>
    show r + 1 * u.val = p.val
    have := u.isLt
    omega
  | ⟨1, _⟩ =>
    show 0 + 1 * q.val = q.val
    omega

/-- The 25 rows from row `o` of the table block, loaded as a slab and read at `(k, q)`, are the block at `(o + k, q)`. -/
theorem ld_slab (T : Vec Ideal S75x16000 .f32) (o : Nat)
    (inb : ∀ a, (![o, 0] : Fin 2 → Nat) a + S25x16000.size a ≤ S75x16000.size a)
    (k : Fin 25) (q : Fin 16000) (p : Fin 75) (hp : p.val = o + k.val) :
    View.ld (Val := Elt Ideal) T (Rect.unit (s := S75x16000) ![o, 0] S25x16000.size inb) (ix2 k q) = T (ix2 p q) := by
  show T _ = T _
  refine congrArg T (funext fun a => Fin.ext ?_)
  match a with
  | ⟨0, _⟩ =>
    show o + 1 * k.val = p.val
    omega
  | ⟨1, _⟩ =>
    show 0 + 1 * q.val = q.val
    omega

/-! ## The lane reductions read at a column -/

/-- The index `(k, q)` is the column index `q` with `k` put back on the reduced axis. -/
theorem lift_eq (h : S25x16000.Reduces [0] S16000) (q : Fin 16000) (k : Fin 25) :
    h.lift (ix1 q) k = ix2 k q := by
  funext a
  match a with
  | ⟨0, _⟩ => rfl
  | ⟨1, _⟩ => rfl

/-- The sum over the 25 rows, as a one-row block, read at `(u, q)`: the sum down column `q`. -/
theorem laneSum_apply (src : FVec Ideal S25x16000 .f32) (hφ : FKind.Formats .f32)
    (hacc : (0x00000000#32 : BitVec 32) = FKind.add.neutral .f32 hφ) (u : Fin 1) (q : Fin 16000) :
    shapeCast S1x16000 (multiReduction (F := Ideal) .add [0] S16000 src 0x00000000#32 Gen.reduces_S25x16000_S16000 hφ hacc)
        Gen.shapeCasts_S16000_S1x16000 (ix2 u q)
      = ∑ k : Fin 25, src (ix2 k q) := by
  refine (shapeCast_a_1a_apply _ _ u q).trans ?_
  refine (Ideal.multiReduction_add_single src _ _ hφ hacc (ix1 q)).trans ?_
  exact Finset.sum_congr rfl fun k _ => congrArg src (lift_eq _ q k)

/-- A block shifted by its lane maximum (the maximum over the 25 rows, broadcast back over them) and
    exponentiated, read at `(k, q)`. -/
theorem shiftExp_apply (src : FVec Ideal S25x16000 .f32) (hφ : FKind.Formats .f32)
    (hacc : (0xFF800000#32 : BitVec 32) = FKind.maximumf.neutral .f32 hφ) (k : Fin 25) (q : Fin 16000) :
    exp (subf src (broadcastTo S25x16000 (shapeCast S1x16000
        (multiReduction (F := Ideal) .maximumf [0] S16000 src 0xFF800000#32 Gen.reduces_S25x16000_S16000 hφ hacc)
        Gen.shapeCasts_S16000_S1x16000) Gen.broadcasts_S1x16000_S25x16000)) (ix2 k q)
      = Ideal.exp (src (ix2 k q) - logitMax fun k' => src (ix2 k' q)) := by
  show Ideal.exp (src (ix2 k q) - broadcastTo S25x16000 _ Gen.broadcasts_S1x16000_S25x16000 (ix2 k q)) = _
  refine congrArg (fun m => Ideal.exp (src (ix2 k q) - m)) ?_
  refine (broadcastTo_1b_ab_apply _ _ k q).trans ?_
  refine (shapeCast_a_1a_apply _ _ (0 : Fin 1) q).trans ?_
  refine (Ideal.multiReduction_maximumf_single src _ _ hφ hacc (ix1 q)).trans ?_
  unfold logitMax
  refine congrArg (fun f => Finset.fold max (Ideal.ofBits .f32 0xFF800000#32) f Finset.univ) ?_
  funext k'
  exact congrArg src (lift_eq _ q k')

/-! ## The payloads read at an index -/

/-- The logits block read at `(k, q)`: the logit of reference point `k` of column `q`. -/
theorem logit_read (c cni cnj : FVec Ideal S25x16000 .f32) (ni nj : FVec Ideal S1x16000 .f32) (k : Fin 25) (q : Fin 16000) :
    select (cmpf .ogt c (broadcast S25x16000 (Scalar.ofBits (F := Ideal) .f32 0x00000000#32)))
        (mulf (broadcast S25x16000 (Scalar.ofBits (F := Ideal) .f32 0xC0800000#32))
          (addf
            (mulf (subf cni (broadcastTo S25x16000 ni Gen.broadcasts_S1x16000_S25x16000))
              (subf cni (broadcastTo S25x16000 ni Gen.broadcasts_S1x16000_S25x16000)))
            (mulf (subf cnj (broadcastTo S25x16000 nj Gen.broadcasts_S1x16000_S25x16000))
              (subf cnj (broadcastTo S25x16000 nj Gen.broadcasts_S1x16000_S25x16000)))))
        (broadcast S25x16000 (Scalar.ofBits (F := Ideal) .f32 0xD01502F9#32)) (ix2 k q)
      = logit (c (ix2 k q)) (cni (ix2 k q)) (cnj (ix2 k q)) (ni (ix2 (0 : Fin 1) q)) (nj (ix2 (0 : Fin 1) q)) := by
  have h1 := broadcastTo_1b_ab_apply ni Gen.broadcasts_S1x16000_S25x16000 k q
  have h2 := broadcastTo_1b_ab_apply nj Gen.broadcasts_S1x16000_S25x16000 k q
  show logit (c (ix2 k q)) (cni (ix2 k q)) (cnj (ix2 k q))
      (broadcastTo S25x16000 ni Gen.broadcasts_S1x16000_S25x16000 (ix2 k q))
      (broadcastTo S25x16000 nj Gen.broadcasts_S1x16000_S25x16000 (ix2 k q)) = _
  rw [h1, h2]

/-- The values slab passes through its cast unchanged. -/
theorem pay5_eq (v10 : Vec Ideal S25x16000 .f32) : k0_pay5 (F := Ideal) v10 = v10 := by
  unfold k0_pay5
  exact shapeCast_self _ _

/-- The weights block read at `(k, q)`: the exponential of point `k`'s logit less the column's largest logit. -/
theorem pay6_apply (v2 v4 : Vec Ideal S1x16000 .f32) (v10 v12 v14 : Vec Ideal S25x16000 .f32) (k : Fin 25) (q : Fin 16000) :
    k0_pay6 (F := Ideal) v2 v4 v10 v12 v14 (ix2 k q)
      = Ideal.exp (logit (v10 (ix2 k q)) (v12 (ix2 k q)) (v14 (ix2 k q)) (v2 (ix2 (0 : Fin 1) q)) (v4 (ix2 (0 : Fin 1) q))
          - logitMax fun k' => logit (v10 (ix2 k' q)) (v12 (ix2 k' q)) (v14 (ix2 k' q)) (v2 (ix2 (0 : Fin 1) q)) (v4 (ix2 (0 : Fin 1) q))) := by
  unfold k0_pay6
  refine (shiftExp_apply _ (.inl rfl) rfl k q).trans ?_
  simp only [logit_read, pay5_eq, shapeCast_self]

/-- The weights' lane sum, as a one-row block, read at `(u, q)`. -/
theorem pay7_apply (v2 v4 : Vec Ideal S1x16000 .f32) (v10 v12 v14 : Vec Ideal S25x16000 .f32) (u : Fin 1) (q : Fin 16000) :
    k0_pay7 (F := Ideal) v2 v4 v10 v12 v14 (ix2 u q) = ∑ k : Fin 25, k0_pay6 (F := Ideal) v2 v4 v10 v12 v14 (ix2 k q) := by
  unfold k0_pay7
  exact laneSum_apply _ (.inl rfl) rfl u q

/-- The weighted values read at `(k, q)`. -/
theorem pay8_apply (v2 v4 : Vec Ideal S1x16000 .f32) (v10 v12 v14 : Vec Ideal S25x16000 .f32) (k : Fin 25) (q : Fin 16000) :
    k0_pay8 (F := Ideal) v2 v4 v10 v12 v14 (ix2 k q) = k0_pay6 (F := Ideal) v2 v4 v10 v12 v14 (ix2 k q) * v10 (ix2 k q) := by
  unfold k0_pay8 k0_pay5
  show k0_pay6 (F := Ideal) v2 v4 v10 v12 v14 (ix2 k q) * shapeCast S25x16000 v10 Gen.shapeCasts_S25x16000_S25x16000 (ix2 k q) = _
  rw [shapeCast_self]

/-- The energy row read at `(0, q)`: `energy` of the column's distance, the quotient of the weighted values' lane sum
    by the weights' lane sum, and the two expectation values. -/
theorem pay1_apply (v1 v7 v9 v35 : FVec Ideal S1x16000 .f32) (v36 : FVec Ideal S25x16000 .f32) (q : Fin 16000) :
    k0_pay1 (F := Ideal) v1 v7 v9 v35 v36 (ix2 (0 : Fin 1) q)
      = energy (v1 (ix2 (0 : Fin 1) q)) (Ideal.div (∑ k : Fin 25, v36 (ix2 k q)) (v35 (ix2 (0 : Fin 1) q)))
          (v7 (ix2 (0 : Fin 1) q)) (v9 (ix2 (0 : Fin 1) q)) := by
  have hs := laneSum_apply v36 (.inl rfl) rfl (0 : Fin 1) q
  refine Eq.trans (b := energy (v1 (ix2 (0 : Fin 1) q))
      (Ideal.div (shapeCast S1x16000 (multiReduction (F := Ideal) .add [0] S16000 v36 0x00000000#32 Gen.reduces_S25x16000_S16000 (.inl rfl) rfl)
        Gen.shapeCasts_S16000_S1x16000 (ix2 (0 : Fin 1) q)) (v35 (ix2 (0 : Fin 1) q)))
      (v7 (ix2 (0 : Fin 1) q)) (v9 (ix2 (0 : Fin 1) q))) ?_ ?_
  · unfold k0_pay1 energy
    rfl
  · exact congrArg (fun s => energy (v1 (ix2 (0 : Fin 1) q)) (Ideal.div s (v35 (ix2 (0 : Fin 1) q)))
      (v7 (ix2 (0 : Fin 1) q)) (v9 (ix2 (0 : Fin 1) q))) hs

/-! ## The output block at a column -/

/-- The output block's offsets are zero. -/
theorem off_zero : (![0, 0] : Fin 2 → Nat) = fun _ => 0 := by
  funext a
  match a with
  | ⟨0, _⟩ => rfl
  | ⟨1, _⟩ => rfl

/-- Entry `(0, q)` of the output block is the pair energy of column `q` of the two input blocks. -/
theorem out_apply (x0 : Vec Ideal S5x16000 .f32) (x1 : Vec Ideal S75x16000 .f32) (q : Fin 16000) :
    out0_2 (F := Ideal) x0 x1 (ix2 0 q) = pairE x0 x1 q := by
  have h0 : k0_pay2 (F := Ideal) (View.ld x0 r0_0) (ix2 (0 : Fin 1) q) = x0 (ix2 0 q) := by
    unfold k0_pay2
    rw [shapeCast_self]
    exact ld_row x0 0 _ 0 q 0 rfl
  have h3 : k0_pay3 (F := Ideal) (View.ld x0 r0_3) (ix2 (0 : Fin 1) q) = x0 (ix2 3 q) := by
    unfold k0_pay3
    rw [shapeCast_self]
    exact ld_row x0 3 _ 0 q 3 rfl
  have h4 : k0_pay4 (F := Ideal) (View.ld x0 r0_4) (ix2 (0 : Fin 1) q) = x0 (ix2 4 q) := by
    unfold k0_pay4
    rw [shapeCast_self]
    exact ld_row x0 4 _ 0 q 4 rfl
  have h1 : View.ld x0 r0_1 (ix2 (0 : Fin 1) q) = x0 (ix2 1 q) := ld_row x0 1 _ 0 q 1 rfl
  have h2 : View.ld x0 r0_2 (ix2 (0 : Fin 1) q) = x0 (ix2 2 q) := ld_row x0 2 _ 0 q 2 rfl
  have h5 : ∀ k : Fin 25, View.ld x1 r0_5 (ix2 k q) = x1 (ix2 (slab 0 k) q) := fun k =>
    ld_slab x1 0 _ k q (slab 0 k) (by show 25 * 0 + k.val = 0 + k.val; omega)
  have h6 : ∀ k : Fin 25, View.ld x1 r0_6 (ix2 k q) = x1 (ix2 (slab 1 k) q) := fun k =>
    ld_slab x1 25 _ k q (slab 1 k) (by show 25 * 1 + k.val = 25 + k.val; omega)
  have h7 : ∀ k : Fin 25, View.ld x1 r0_7 (ix2 k q) = x1 (ix2 (slab 2 k) q) := fun k =>
    ld_slab x1 50 _ k q (slab 2 k) (by show 25 * 2 + k.val = 50 + k.val; omega)
  have e6 : ∀ k : Fin 25, k0_pay6 (F := Ideal) (View.ld x0 r0_1) (View.ld x0 r0_2) (View.ld x1 r0_5) (View.ld x1 r0_6) (View.ld x1 r0_7) (ix2 k q)
      = Ideal.exp (logit (x1 (ix2 (slab 0 k) q)) (x1 (ix2 (slab 1 k) q)) (x1 (ix2 (slab 2 k) q)) (x0 (ix2 1 q)) (x0 (ix2 2 q))
          - logitMax fun k' => logit (x1 (ix2 (slab 0 k') q)) (x1 (ix2 (slab 1 k') q)) (x1 (ix2 (slab 2 k') q)) (x0 (ix2 1 q)) (x0 (ix2 2 q))) := by
    intro k
    refine (pay6_apply _ _ _ _ _ k q).trans ?_
    simp only [h1, h2, h5, h6, h7]
  unfold out0_2
  refine (congrFun (View.canon_unit_zero off_zero _ _) (ix2 (0 : Fin 1) q)).trans ?_
  refine (pay1_apply _ _ _ _ _ q).trans ?_
  rw [h0, h3, h4, pay7_apply]
  simp only [pay8_apply, e6, h5]
  rfl

end Cert.KernelIdeal.KPayload

end
-- ==== Proof.KIValue.lean ====
/-
  The idealized kernel's result as a function of its arguments.

  At a grid point the output block's entry `(0, q)` is the pair energy `pairE` of column `q` of the two input blocks
  (`out_apply`: the body's payload read at an index — a lane sum, a lane maximum, broadcasts of a row over 25 rows,
  pointwise operations). Block `t` of each array is its columns `16000·t … 16000·t + 15999`, all rows, so the
  `[1, 1600000]` array after the launch holds at `(0, p)` the pair energy of column `p` of the `[5, 1600000]` packed array
  and the `[75, 1600000]` table as the launch finds them (`final`). The host tail flattens that row, scatter-adds it by
  the first index array into zeros and multiplies by one (`kres`, `run`).
-/
import proofs.«431380_j22763326669101_3_alg».proof.Proof.KIFrame
import proofs.«431380_j22763326669101_3_alg».proof.Proof.PairFn
import proofs.«431380_j22763326669101_3_alg».proof.Proof.KIPayload
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.KValue

open Cert.KernelIdeal Cert.KernelIdeal.Gen Cert.KernelIdeal.Hand
open Cert.KernelIdeal.Facts₀ Cert.KernelIdeal.Facts
open Idealize.ShloMosaic Idealize.ShloMosaic.TcCoe Idealize.ShloMosaic.ValueIdx
open Idealize.SL Idealize.SL.Sem
open Idealize.ShloMosaic.Pipeline (Dat)
open Cert.D3

variable (m : (ℓ : Loc nD τ sig) → Buf (Elt Ideal) ℓ) (ρ : Dev nD → PrngReg)

/-- The packed `[5, 1600000]` array and the `[75, 1600000]` table as the launch finds them on core `c`. -/
abbrev packed (c : Dev nD) : S5x1600000.Idx → EReal := V m c main_v85
abbrev table (c : Dev nD) : S75x1600000.Idx → EReal := V m c main_v79

/-- Entry `(0, q)` of the output block is the pair energy of column `q` of the two input blocks. -/
theorem out_apply (x0 : Vec Ideal S5x16000 .f32) (x1 : Vec Ideal S75x16000 .f32) (q : Fin 16000) :
    out0_2 (F := Ideal) x0 x1 (ix2 0 q) = pairE x0 x1 q :=
  Cert.KernelIdeal.KPayload.out_apply x0 x1 q

/-! ## From blocks to the array -/

/-- The pair energy of a column reads that column only: five entries of the packed array and seventy-five of the table. -/
theorem pairE_congr {P P' : Nat} (X : (⟨2, ![5, P]⟩ : Shape).Idx → EReal) (T : (⟨2, ![75, P]⟩ : Shape).Idx → EReal)
    (X' : (⟨2, ![5, P']⟩ : Shape).Idx → EReal) (T' : (⟨2, ![75, P']⟩ : Shape).Idx → EReal) (p : Fin P) (p' : Fin P')
    (hX : ∀ r : Fin 5, X (ix2 r p) = X' (ix2 r p')) (hT : ∀ r : Fin 75, T (ix2 r p) = T' (ix2 r p')) :
    pairE X T p = pairE X' T' p' := by
  unfold pairE
  simp only [hX, hT]

/-- The index maps over the grid: at point `t` each window's block is row block 0, column block `t`. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- Block `t` of window 0's array, read at `x`: the array at the same row and at column `16000·t` plus the block's column. -/
theorem blk0_read (t : Fin cfg0.N) (A : S5x1600000.Idx → EReal) (x : S5x16000.Idx) (k : S5x1600000.Idx)
    (hk0 : (k 0).val = (x 0).val) (hk1 : (k 1).val = 16000 * t.val + (x 1).val) :
    ((cfg0.win 0).blk t).view.read (Elt Ideal) A x = A k := by
  have h0 : win0_0.index t (0 : Fin 2) = 0 := (idx_facts t).1
  have h1 : win0_0.index t (1 : Fin 2) = t.val := (idx_facts t).2.1
  rw [View.read_apply]
  show A _ = A k
  refine congrArg A ?_
  funext a
  apply Fin.ext
  match a with
  | ⟨0, _⟩ => show win0_0.index t (0 : Fin 2) * 5 + 1 * (x 0).val = (k 0).val; rw [h0, hk0]; omega
  | ⟨1, _⟩ => show win0_0.index t (1 : Fin 2) * 16000 + 1 * (x 1).val = (k 1).val; rw [h1, hk1]; omega

/-- Block `t` of window 1's array, read at `x`: the array at the same row and at column `16000·t` plus the block's column. -/
theorem blk1_read (t : Fin cfg0.N) (A : S75x1600000.Idx → EReal) (x : S75x16000.Idx) (k : S75x1600000.Idx)
    (hk0 : (k 0).val = (x 0).val) (hk1 : (k 1).val = 16000 * t.val + (x 1).val) :
    ((cfg0.win 1).blk t).view.read (Elt Ideal) A x = A k := by
  have h0 : win0_1.index t (0 : Fin 2) = 0 := (idx_facts t).2.2.1
  have h1 : win0_1.index t (1 : Fin 2) = t.val := (idx_facts t).2.2.2.1
  rw [View.read_apply]
  show A _ = A k
  refine congrArg A ?_
  funext a
  apply Fin.ext
  match a with
  | ⟨0, _⟩ => show win0_1.index t (0 : Fin 2) * 75 + 1 * (x 0).val = (k 0).val; rw [h0, hk0]; omega
  | ⟨1, _⟩ => show win0_1.index t (1 : Fin 2) * 16000 + 1 * (x 1).val = (k 1).val; rw [h1, hk1]; omega

/-- Block `t` of window 2's array, read at `x`: the array at the same row and at column `16000·t` plus the block's column. -/
theorem blk2_read (t : Fin cfg0.N) (A : S1x1600000.Idx → EReal) (x : S1x16000.Idx) (k : S1x1600000.Idx)
    (hk0 : (k 0).val = (x 0).val) (hk1 : (k 1).val = 16000 * t.val + (x 1).val) :
    ((cfg0.win 2).blk t).view.read (Elt Ideal) A x = A k := by
  have h0 : win0_2.index t (0 : Fin 2) = 0 := (idx_facts t).2.2.2.2.1
  have h1 : win0_2.index t (1 : Fin 2) = t.val := (idx_facts t).2.2.2.2.2
  rw [View.read_apply]
  show A _ = A k
  refine congrArg A ?_
  funext a
  apply Fin.ext
  match a with
  | ⟨0, _⟩ => show win0_2.index t (0 : Fin 2) * 1 + 1 * (x 0).val = (k 0).val; rw [h0, hk0]; omega
  | ⟨1, _⟩ => show win0_2.index t (1 : Fin 2) * 16000 + 1 * (x 1).val = (k 1).val; rw [h1, hk1]; omega

/-- Block `t` of the packed array is its columns `16000·t … 16000·t + 15999`, rows unchanged. -/
theorem iblk0_apply (c : Dev nD) (t : Fin cfg0.N) (x : S5x16000.Idx) (k : S5x1600000.Idx)
    (hk0 : (k 0).val = (x 0).val) (hk1 : (k 1).val = 16000 * t.val + (x 1).val) :
    (iblk m c 0 t : Vec Ideal S5x16000 .f32) x = packed m c k := by
  unfold iblk
  exact blk0_read t (packed m c) x k hk0 hk1

/-- Block `t` of the table is its columns `16000·t … 16000·t + 15999`, rows unchanged. -/
theorem iblk1_apply (c : Dev nD) (t : Fin cfg0.N) (x : S75x16000.Idx) (k : S75x1600000.Idx)
    (hk0 : (k 0).val = (x 0).val) (hk1 : (k 1).val = 16000 * t.val + (x 1).val) :
    (iblk m c 1 t : Vec Ideal S75x16000 .f32) x = table m c k := by
  unfold iblk
  exact blk1_read t (table m c) x k hk0 hk1

/-- The output array the launch leaves: at `(0, p)` the pair energy of column `p`. -/
abbrev G (c : Dev nD) : S1x1600000.Idx → EReal := fun j => pairE (packed m c) (table m c) ⟨(j 1).val, (j 1).isLt⟩

/-- Entry `(0, q)` of the output block at point `t` is the pair energy of column `16000·t + q` of the two arrays. -/
theorem out_blk (c : Dev nD) (t : Fin cfg0.N) (q : Fin 16000) (p : Fin 1600000) (hp : p.val = 16000 * t.val + q.val) :
    out0_2 (F := Ideal) (iblk m c 0 t) (iblk m c 1 t) (ix2 0 q) = pairE (packed m c) (table m c) p := by
  refine (out_apply (iblk m c 0 t) (iblk m c 1 t) q).trans ?_
  exact pairE_congr (iblk m c 0 t) (iblk m c 1 t) (packed m c) (table m c) q p
    (fun r => iblk0_apply m c t (ix2 r q) (ix2 r p) rfl hp) (fun r => iblk1_apply m c t (ix2 r q) (ix2 r p) rfl hp)

theorem G_apply (c : Dev nD) (k : S1x1600000.Idx) (p : Fin 1600000) (h : (k 1).val = p.val) :
    G m c k = pairE (packed m c) (table m c) p :=
  congrArg (pairE (packed m c) (table m c)) (Fin.ext h)

/-- The output window's blocks are whole: what is written back is what the body left. -/
theorem cut_apply (t : Fin cfg0.N) (X : S1x16000.Idx → EReal) (q : Fin 16000) :
    (cfg0.win 2).cut (grid0.coords t) X (ix2 0 q) = X (ix2 0 q) :=
  rfl

/-- What point `t` writes back is block `t` of that array. -/
theorem flushed_eq (c : Dev nD) (t : Fin cfg0.N) :
    (dats m 0 c).flushed 2 t = ((cfg0.win 2).blk t).view.read (Elt Ideal) (G m c) := by
  show (cfg0.win 2).cut (grid0.coords t) ((dats m 0 c).after 2 t) = _
  rw [after0_2]
  funext y
  obtain ⟨a, q, rfl⟩ : ∃ (a : Fin 1) (q : Fin 16000), y = ix2 a q := ⟨y 0, y 1, eq_ix2 y⟩
  obtain rfl : a = 0 := Subsingleton.elim _ _
  have hq : q.val < 16000 := q.isLt
  have ht : t.val < 100 := lt_of_lt_of_eq t.isLt (show cfg0.N = 100 from N_0)
  refine (cut_apply t (out0_2 (F := Ideal) (iblk m c 0 t) (iblk m c 1 t)) q).trans ?_
  refine (out_blk m c t q ⟨16000 * t.val + q.val, by omega⟩ rfl).trans ?_
  exact ((blk2_read t (G m c) (ix2 0 q) (ix2 0 ⟨16000 * t.val + q.val, by omega⟩) rfl rfl).trans
    (G_apply m c (ix2 0 ⟨16000 * t.val + q.val, by omega⟩) ⟨16000 * t.val + q.val, by omega⟩ rfl)).symm

/-- An index of the output array is in point `t`'s block iff each coordinate is in the block's range on its axis. -/
theorem mem_blk (t : Fin cfg0.N) (i : S1x1600000.Idx) :
    i ∈ ((cfg0.win 2).blk t).view.set ↔ ∀ a : Fin 2, win0_2.index t a * S1x16000.size a ≤ (i a).val ∧ (i a).val < win0_2.index t a * S1x16000.size a + S1x16000.size a := by
  show i ∈ ((View.whole main_v86).slice (win0_2.rect t)).set ↔ _
  rw [View.set_slice_whole, Rect.mem_set_unit]
  exact Iff.rfl

/-- Column `p` is in the block of point `p / 16000`. -/
theorem cover (i : S1x1600000.Idx) : ∃ t : Fin cfg0.N, (cfg0.win 2).flush t = true ∧ i ∈ ((cfg0.win 2).blk t).view.set := by
  have hi0 : (i 0).val < 1 := (i 0).isLt
  have hi1 : (i 1).val < 1600000 := (i 1).isLt
  have hN : cfg0.N = 100 := N_0
  refine ⟨⟨(i 1).val / 16000, by rw [hN]; omega⟩, flush0_2 _, ?_⟩
  rw [mem_blk]
  obtain ⟨-, -, -, -, h0, h1⟩ := idx_facts ⟨(i 1).val / 16000, by rw [hN]; omega⟩
  intro a
  match a with
  | ⟨0, _⟩ => show win0_2.index _ (0 : Fin 2) * 1 ≤ (i 0).val ∧ (i 0).val < win0_2.index _ (0 : Fin 2) * 1 + 1; rw [h0]; omega
  | ⟨1, _⟩ => show win0_2.index _ (1 : Fin 2) * 16000 ≤ (i 1).val ∧ (i 1).val < win0_2.index _ (1 : Fin 2) * 16000 + 16000; rw [h1]; show (i 1).val / 16000 * 16000 ≤ (i 1).val ∧ (i 1).val < (i 1).val / 16000 * 16000 + 16000; omega

/-- The output array after the launch: at `(0, p)` the pair energy of column `p`. -/
theorem final (c : Dev nD) :
    ((dats m 0 c).arrAt 2 cfg0.N : S1x1600000.Idx → EReal)
      = fun j => pairE (packed m c) (table m c) ⟨(j 1).val, (j 1).isLt⟩ := by
  exact (dats m 0 c).arrAt_eq_of_cover 2 (G m c) (fun t _ => flushed_eq m c t) cover

/-- The per-pair energies as a flat array. -/
def eK (c : Dev nD) : S1600000.Idx → EReal := fun i => pairE (packed m c) (table m c) ⟨(i 0).val, (i 0).isLt⟩

/-- The result: the energies scatter-added by the first index array into zeros, times one. -/
def kres (c : Dev nD) : S50000.Idx → EReal :=
  mulf (F := Ideal) (φ := .f32) (broadcastInDim S50000 ![] Facts₀.bcast_S_S50000 (constant (F := Ideal) S_ .f32 0x3F800000#32))
    (Host.scatterAdd (F := Ideal) (φ := .f32) scatter_S50000_S1600000x1_S1600000_n_0_0_1
      (broadcastInDim S50000 ![] Facts₀.bcast_S_S50000 (constant (F := Ideal) S_ .f32 0x00000000#32))
      (broadcastInDim S1600000x1 ![0] Facts₀.bcast_S1600000_S1600000x1_0 (m ((c.tc : Thread nD τ).loc main_arg2)))
      (eK m c))

/-! ## The host tail -/

theorem eK_apply (c : Dev nD) (i : S1600000.Idx) (p : Fin 1600000) (h : (i 0).val = p.val) :
    eK m c i = pairE (packed m c) (table m c) p :=
  congrArg (pairE (packed m c) (table m c)) (Fin.ext h)

/-- The output row flattened is the per-pair energies: entry `p` of the flat array is entry `(0, p)` of the row. -/
theorem flat_eq (c : Dev nD) (h : S1x1600000.ShapeCasts S1600000) :
    shapeCast S1600000 (G m c) h = eK m c := by
  funext i
  obtain ⟨p, rfl⟩ : ∃ p : Fin 1600000, i = ix1 p := ⟨i 0, eq_ix1 i⟩
  refine (shapeCast_apply (G m c) h (ix1 p) (ix2 0 p) ?_).trans ?_
  · rw [Shape.rowMajor_val_two, Shape.rowMajor_val_one]
    show 0 * 1600000 + p.val = p.val
    omega
  · exact (G_apply m c (ix2 0 p) p rfl).trans (eK_apply m c (ix1 p) p rfl).symm

/-- The result buffer after the host tail: the launch's output row flattened, scatter-added by the first index array
    into zeros, times one. -/
theorem tail (c : Dev nD) : Pipeline.afterTail₀ cfgs (dats m) 0 (V0 m) [hostOps1] c main_v92 = kres m c := by
  unfold Pipeline.afterTail₀
  show StableHlo.after hostOps1 _ (Proc.devRef .tc main_v92) = _
  after_results
  generalize hW : Pipeline.withArrays _ _ _ _ = W
  have e2 : W (Proc.devRef .tc main_arg2) = m ((c.tc : Thread nD τ).loc main_arg2) := by
    subst hW
    exact (Pipeline.withArrays_of_ne _ c (V0 m c) _ main_arg2 (by exact (by decide : ∀ w, Pipeline.arrRef spec0 w ≠ main_arg2))).trans (V_main_arg2 m c)
  have e86 : (W (Proc.devRef .tc main_v86) : S1x1600000.Idx → EReal) = G m c := by
    subst hW
    exact (Pipeline.withArrays_arr spec0 launch0.win.arr_inj c _ _ 2).trans (final m c)
  rw [e2, e86]
  unfold kres
  rw [← flat_eq m c Gen.shapeCasts_S1x1600000_S1600000]
  rfl

/-- Every weakly fair execution of the idealized kernel ends with its result at `kres` and its arguments unchanged. -/
theorem run : θ_run (defs (F := Ideal)) (onTc (τ := τ) (main (F := Ideal))) ⟨m, fun _ => 0, ρ⟩ (fun r => ∀ c : Dev nD,
      r.2.mem ((c.tc : Thread nD τ).loc main_v92) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v92 (Pipeline.mem_restRefs_of main_v92 (by decide) (by decide))).trans (tail m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.KValue

end
-- ==== Proof.KIPacked.lean ====
/-
  The five packed rows the launch reads are the reference's own stages.

  The kernel's program computes, before the launch, the same host chain as the reference: the scaled distance,
  the two gathered atomic numbers, the covalent-radius sum, the damping, the coordination numbers scatter-added per
  atom and gathered back per pair, the two gathered expectation values. Row `r` of the packed `[5, 1600000]` array at
  column `p` is the `r`-th of these at `p`. The one difference on the way is the damping's exponent: the kernel scales
  by `16` and negates, the reference scales by `-16`; `-(16·y) = (-16)·y` on the extended reals.
-/
import proofs.«431380_j22763326669101_3_alg».proof.Proof.KIFrame
import proofs.«431380_j22763326669101_3_alg».proof.Proof.ReadP
import proofs.«431380_j22763326669101_3_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Packed

open Cert.KernelIdeal Cert.KernelIdeal.Gen Cert.KernelIdeal.Hand
open Idealize.ShloMosaic Idealize.ShloMosaic.TcCoe Idealize.ShloMosaic.ValueIdx
open Idealize.SL Idealize.SL.Sem
open Cert.D3

/-! ## The packed array read at an entry

Five vectors of 1600000 entries, each broadcast to one row and the five rows joined along axis 0: row `r` at column
`p` is the `r`-th vector at `p`. -/

/-- The `[5, 1600000]` array whose rows are five given vectors. -/
def packed {α : Type} (u0 u1 u2 u3 u4 : S1600000.Idx → α) : S5x1600000.Idx → α :=
  concatenate S5x1600000 0
    [⟨S1x1600000, broadcastInDim S1x1600000 ![1] bcast_S1600000_S1x1600000_1 u0⟩,
     ⟨S1x1600000, broadcastInDim S1x1600000 ![1] bcast_S1600000_S1x1600000_1 u1⟩,
     ⟨S1x1600000, broadcastInDim S1x1600000 ![1] bcast_S1600000_S1x1600000_1 u2⟩,
     ⟨S1x1600000, broadcastInDim S1x1600000 ![1] bcast_S1600000_S1x1600000_1 u3⟩,
     ⟨S1x1600000, broadcastInDim S1x1600000 ![1] bcast_S1600000_S1x1600000_1 u4⟩]
    concatenates_S1x1600000_S1x1600000_S1x1600000_S1x1600000_S1x1600000_S5x1600000_d0

/-- Row `r` of the packed array at column `p`: the `r`-th vector at `p`. -/
theorem packed_at {α : Type} (u0 u1 u2 u3 u4 : S1600000.Idx → α) (r : Fin 5) (p : Fin 1600000) :
    packed u0 u1 u2 u3 u4 (ix2 r p) = (![u0, u1, u2, u3, u4] r) (ix1 p) := by
  unfold packed
  -- the row coordinate r falls in piece r, whose span along axis 0 starts after r rows of extent 1
  refine (concatenate_apply_piece (0 : Fin 2) _ _ (ix2 r p) r.val ?hk S1x1600000
    (broadcastInDim S1x1600000 ![1] bcast_S1600000_S1x1600000_1 (![u0, u1, u2, u3, u4] r)) ?hxk rfl r.val ?hpre (ix2 0 p) ?hi ?ha).trans ?_
  case hk => exact r.isLt
  case hxk => fin_cases r <;> rfl
  case hpre => fin_cases r <;> rfl
  case hi =>
    intro b
    match b with
    | ⟨0, _⟩ => exact fun h => absurd rfl h
    | ⟨1, _⟩ => exact fun _ => rfl
  case ha => exact Nat.add_zero _
  -- a row's one broadcast axis: the column
  exact broadcastInDim_apply _ bcast_S1600000_S1x1600000_1 _ (ix2 0 p) (ix1 p) (fun a => match a with
    | ⟨0, _⟩ => by show p.val = if (1600000 : Nat) = 1 then 0 else p.val; rw [if_neg (by decide)])

/-! ## A five-operand operation's result -/

/-- An operation over a literal family of five references leaves at its result buffer its function of the five
    operands' contents, each at its own reference. -/
theorem nary5_result {Val : EltTy → Type} {x a b d e y : Ref sig .tc}
    (f : ((k : Fin 5) → ((![x, a, b, d, e] : Fin 5 → Ref sig .tc) k).ty.Contents Val) → y.ty.Contents Val) (hxs hy)
    (G : Valuation τ sig Val) :
    (StableHlo.nary (τ := τ) ![x, a, b, d, e] y f hxs hy).result G (Proc.devRef .tc y)
      = f (Fin.cons (G (Proc.devRef .tc x)) (Fin.cons (G (Proc.devRef .tc a)) (Fin.cons (G (Proc.devRef .tc b))
          (Fin.cons (G (Proc.devRef .tc d)) (Fin.cons (G (Proc.devRef .tc e)) (fun i => i.elim0)))))) := by
  rw [StableHlo.nary_result]; congr 1; funext k; fin_cases k <;> rfl
theorem nary5_result' {Val : EltTy → Type} {x a b d e y : Ref sig .tc}
    (f : ((k : Fin 5) → ((![x, a, b, d, e] : Fin 5 → Ref sig .tc) k).ty.Contents Val) → y.ty.Contents Val) (hxs hy)
    (G : Valuation τ sig Val) :
    (StableHlo.nary (τ := τ) ![x, a, b, d, e] y f hxs hy).result G (no_index (Proc.devRef .tc y))
      = f (Fin.cons (G (Proc.devRef .tc x)) (Fin.cons (G (Proc.devRef .tc a)) (Fin.cons (G (Proc.devRef .tc b))
          (Fin.cons (G (Proc.devRef .tc d)) (Fin.cons (G (Proc.devRef .tc e)) (fun i => i.elim0)))))) :=
  nary5_result f hxs hy G

/-- Three lines of operations run in a row. -/
theorem after_three {Val : EltTy → Type} (l0 l1 l2 : List (HloOp τ sig Val)) (G : Valuation τ sig Val) :
    StableHlo.after (List.flatten [l0, l1, l2]) G = StableHlo.after l2 (StableHlo.after l1 (StableHlo.after l0 G)) := by
  simp only [List.flatten_cons, List.flatten_nil, List.append_nil, StableHlo.after_append]

/-! ## The host stretches, read at a buffer over any float model

The first stretch of the kernel's host operations is, operation for operation, the reference's chain up to the
damping, then the scatter-add and the gathers over the kernel's damping in place of the reference's; read from any
contents `W` at a result buffer, it is the reference's stage over `W` at the arguments. The second stretch (the table
lookup) and the third (the packing) write none of these buffers. -/

section Read

variable {F : FTy → Type} [FloatOps F]

/-- The kernel's damping of the scaled excess `y`, entry by entry: `1 / (1 + exp (-(16 · y)))`. -/
def kdamp (y : FVec F S1600000 .f32) : FVec F S1600000 .f32 :=
  Host.divf (broadcastInDim S1600000 ![] bcast_S_S1600000 (constant (F := F) S_ .f32 0x3F800000#32))
    (addf (broadcastInDim S1600000 ![] bcast_S_S1600000 (constant (F := F) S_ .f32 0x3F800000#32))
      (Host.exp (Host.negf (mulf (broadcastInDim S1600000 ![] bcast_S_S1600000 (constant (F := F) S_ .f32 0x41800000#32)) y))))

/-- The coordination numbers of a damping `d`, scatter-added per first atom, gathered back at an index array. -/
def cnAt (x2 : IVec S1600000 32) (d : FVec F S1600000 .f32) (ix : IVec S1600000x1 32) : FVec F S1600000 .f32 :=
  Host.gather gather_S50000_S1600000x1_S1600000_n_0_n_n_0_1_1
    (Host.scatterAdd scatter_S50000_S1600000x1_S1600000_n_0_0_1 (Cert.ReferenceIdeal.ReadP.val_main_v41 (F := F))
      (Cert.ReferenceIdeal.ReadP.val_main_v42 (F := F) x2) d) ix

variable (W : Valuation τ sig (Elt F))

/-- The arguments' contents. -/
abbrev A0 : IVec S50000 32 := W (Proc.devRef .tc main_arg0)
abbrev A1 : FVec F S1600000 .f32 := W (Proc.devRef .tc main_arg1)
abbrev A2 : IVec S1600000 32 := W (Proc.devRef .tc main_arg2)
abbrev A3 : IVec S1600000 32 := W (Proc.devRef .tc main_arg3)
abbrev A5 : FVec F S95 .f32 := W (Proc.devRef .tc main_arg5)
abbrev A6 : FVec F S95 .f32 := W (Proc.devRef .tc main_arg6)

theorem h0_v1 : (StableHlo.after hostOps0 W (Proc.devRef .tc main_v1) : FVec F S1600000 .f32)
    = Cert.ReferenceIdeal.ReadP.val_main_v1 (F := F) (A1 W) := by
  simp only [hostOps0]
  after_results_simp
  rfl
theorem h0_v8 : (StableHlo.after hostOps0 W (Proc.devRef .tc main_v8) : IVec S1600000 32)
    = Cert.ReferenceIdeal.ReadP.val_main_v8 (F := F) (A0 W) (A2 W) := by
  simp only [hostOps0]
  after_results_simp
  rfl
theorem h0_v15 : (StableHlo.after hostOps0 W (Proc.devRef .tc main_v15) : IVec S1600000 32)
    = Cert.ReferenceIdeal.ReadP.val_main_v15 (F := F) (A0 W) (A3 W) := by
  simp only [hostOps0]
  after_results_simp
  rfl
theorem h0_v51 : (StableHlo.after hostOps0 W (Proc.devRef .tc main_v51) : FVec F S1600000 .f32)
    = cnAt (A2 W) (kdamp (Cert.ReferenceIdeal.ReadP.val_main_v33 (F := F) (A0 W) (A1 W) (A2 W) (A3 W) (A5 W)))
        (Cert.ReferenceIdeal.ReadP.val_main_v49 (F := F) (A2 W)) := by
  simp only [hostOps0]
  after_results_simp
  rfl
theorem h0_v58 : (StableHlo.after hostOps0 W (Proc.devRef .tc main_v58) : FVec F S1600000 .f32)
    = cnAt (A2 W) (kdamp (Cert.ReferenceIdeal.ReadP.val_main_v33 (F := F) (A0 W) (A1 W) (A2 W) (A3 W) (A5 W)))
        (Cert.ReferenceIdeal.ReadP.val_main_v56 (F := F) (A3 W)) := by
  simp only [hostOps0]
  after_results_simp
  rfl
theorem h0_v65 : (StableHlo.after hostOps0 W (Proc.devRef .tc main_v65) : FVec F S1600000 .f32)
    = Cert.ReferenceIdeal.ReadP.val_main_v116 (F := F) (A0 W) (A2 W) (A6 W) := by
  simp only [hostOps0]
  after_results_simp
  rfl
theorem h0_v72 : (StableHlo.after hostOps0 W (Proc.devRef .tc main_v72) : FVec F S1600000 .f32)
    = Cert.ReferenceIdeal.ReadP.val_main_v124 (F := F) (A0 W) (A3 W) (A6 W) := by
  simp only [hostOps0]
  after_results_simp
  rfl

/-- The table lookup writes none of the seven buffers. -/
theorem keep1_v1 : StableHlo.after hostOps0_1 W (Proc.devRef .tc main_v1) = W (Proc.devRef .tc main_v1) := by
  simp only [hostOps0_1]
  after_results_simp
theorem keep1_v8 : StableHlo.after hostOps0_1 W (Proc.devRef .tc main_v8) = W (Proc.devRef .tc main_v8) := by
  simp only [hostOps0_1]
  after_results_simp
theorem keep1_v15 : StableHlo.after hostOps0_1 W (Proc.devRef .tc main_v15) = W (Proc.devRef .tc main_v15) := by
  simp only [hostOps0_1]
  after_results_simp
theorem keep1_v51 : StableHlo.after hostOps0_1 W (Proc.devRef .tc main_v51) = W (Proc.devRef .tc main_v51) := by
  simp only [hostOps0_1]
  after_results_simp
theorem keep1_v58 : StableHlo.after hostOps0_1 W (Proc.devRef .tc main_v58) = W (Proc.devRef .tc main_v58) := by
  simp only [hostOps0_1]
  after_results_simp
theorem keep1_v65 : StableHlo.after hostOps0_1 W (Proc.devRef .tc main_v65) = W (Proc.devRef .tc main_v65) := by
  simp only [hostOps0_1]
  after_results_simp
theorem keep1_v72 : StableHlo.after hostOps0_1 W (Proc.devRef .tc main_v72) = W (Proc.devRef .tc main_v72) := by
  simp only [hostOps0_1]
  after_results_simp

/-- The packing writes neither gathered atomic-number array. -/
theorem keep2_v8 : StableHlo.after hostOps0_2 W (Proc.devRef .tc main_v8) = W (Proc.devRef .tc main_v8) := by
  simp only [hostOps0_2]
  after_results_simp
theorem keep2_v15 : StableHlo.after hostOps0_2 W (Proc.devRef .tc main_v15) = W (Proc.devRef .tc main_v15) := by
  simp only [hostOps0_2]
  after_results_simp

/-- The packing leaves the five broadcast rows joined. -/
theorem h2_v85 : (StableHlo.after hostOps0_2 W (Proc.devRef .tc main_v85) : FVec F S5x1600000 .f32)
    = packed (W (Proc.devRef .tc main_v1)) (W (Proc.devRef .tc main_v51)) (W (Proc.devRef .tc main_v58))
        (W (Proc.devRef .tc main_v65)) (W (Proc.devRef .tc main_v72)) := by
  simp only [hostOps0_2]
  simp (disch := decide) only [StableHlo.after_cons, StableHlo.after_nil, nary5_result', StableHlo.unary_result',
    StableHlo.unary_result_ne', StableHlo.reshape_result_ne']
  rfl

/-- The three stretches in a row, read at the gathered atomic numbers and at the packed array. -/
theorem r_v8 : (StableHlo.after (List.flatten [hostOps0, hostOps0_1, hostOps0_2]) W (Proc.devRef .tc main_v8) : IVec S1600000 32)
    = Cert.ReferenceIdeal.ReadP.val_main_v8 (F := F) (A0 W) (A2 W) := by
  rw [after_three, keep2_v8, keep1_v8, h0_v8]
theorem r_v15 : (StableHlo.after (List.flatten [hostOps0, hostOps0_1, hostOps0_2]) W (Proc.devRef .tc main_v15) : IVec S1600000 32)
    = Cert.ReferenceIdeal.ReadP.val_main_v15 (F := F) (A0 W) (A3 W) := by
  rw [after_three, keep2_v15, keep1_v15, h0_v15]
theorem r_v85 : (StableHlo.after (List.flatten [hostOps0, hostOps0_1, hostOps0_2]) W (Proc.devRef .tc main_v85) : FVec F S5x1600000 .f32)
    = packed (Cert.ReferenceIdeal.ReadP.val_main_v1 (F := F) (A1 W))
        (cnAt (A2 W) (kdamp (Cert.ReferenceIdeal.ReadP.val_main_v33 (F := F) (A0 W) (A1 W) (A2 W) (A3 W) (A5 W)))
          (Cert.ReferenceIdeal.ReadP.val_main_v49 (F := F) (A2 W)))
        (cnAt (A2 W) (kdamp (Cert.ReferenceIdeal.ReadP.val_main_v33 (F := F) (A0 W) (A1 W) (A2 W) (A3 W) (A5 W)))
          (Cert.ReferenceIdeal.ReadP.val_main_v56 (F := F) (A3 W)))
        (Cert.ReferenceIdeal.ReadP.val_main_v116 (F := F) (A0 W) (A2 W) (A6 W))
        (Cert.ReferenceIdeal.ReadP.val_main_v124 (F := F) (A0 W) (A3 W) (A6 W)) := by
  rw [after_three, h2_v85, keep1_v1, keep1_v51, keep1_v58, keep1_v65, keep1_v72, h0_v1, h0_v51, h0_v58, h0_v65, h0_v72]

end Read

/-- The rows of the packed array, one by one. -/
theorem packed_at0 {α : Type} (u0 u1 u2 u3 u4 : S1600000.Idx → α) (p : Fin 1600000) :
    packed u0 u1 u2 u3 u4 (ix2 0 p) = u0 (ix1 p) := packed_at u0 u1 u2 u3 u4 0 p
theorem packed_at1 {α : Type} (u0 u1 u2 u3 u4 : S1600000.Idx → α) (p : Fin 1600000) :
    packed u0 u1 u2 u3 u4 (ix2 1 p) = u1 (ix1 p) := packed_at u0 u1 u2 u3 u4 1 p
theorem packed_at2 {α : Type} (u0 u1 u2 u3 u4 : S1600000.Idx → α) (p : Fin 1600000) :
    packed u0 u1 u2 u3 u4 (ix2 2 p) = u2 (ix1 p) := packed_at u0 u1 u2 u3 u4 2 p
theorem packed_at3 {α : Type} (u0 u1 u2 u3 u4 : S1600000.Idx → α) (p : Fin 1600000) :
    packed u0 u1 u2 u3 u4 (ix2 3 p) = u3 (ix1 p) := packed_at u0 u1 u2 u3 u4 3 p
theorem packed_at4 {α : Type} (u0 u1 u2 u3 u4 : S1600000.Idx → α) (p : Fin 1600000) :
    packed u0 u1 u2 u3 u4 (ix2 4 p) = u4 (ix1 p) := packed_at u0 u1 u2 u3 u4 4 p

/-! ## The damping at the extended reals -/

section Damp

variable {F : FTy → Type} [FloatOps F]

/-- The reference's two gathered coordination numbers are the gathers over its own damping. -/
theorem cn50_eq (x0 : IVec S50000 32) (x1 : FVec F S1600000 .f32) (x2 x3 : IVec S1600000 32) (x5 : FVec F S95 .f32) :
    cnAt x2 (Cert.ReferenceIdeal.ReadP.val_main_v40 (F := F) x0 x1 x2 x3 x5) (Cert.ReferenceIdeal.ReadP.val_main_v49 (F := F) x2)
      = Cert.ReferenceIdeal.ReadP.val_main_v50 (F := F) x0 x1 x2 x3 x5 := rfl
theorem cn57_eq (x0 : IVec S50000 32) (x1 : FVec F S1600000 .f32) (x2 x3 : IVec S1600000 32) (x5 : FVec F S95 .f32) :
    cnAt x2 (Cert.ReferenceIdeal.ReadP.val_main_v40 (F := F) x0 x1 x2 x3 x5) (Cert.ReferenceIdeal.ReadP.val_main_v56 (F := F) x3)
      = Cert.ReferenceIdeal.ReadP.val_main_v57 (F := F) x0 x1 x2 x3 x5 := rfl

/-- The reference's damping of the scaled excess: `1 / (1 + exp ((-16) · y))`, entry by entry. -/
theorem v40_eq (x0 : IVec S50000 32) (x1 : FVec F S1600000 .f32) (x2 x3 : IVec S1600000 32) (x5 : FVec F S95 .f32) :
    Cert.ReferenceIdeal.ReadP.val_main_v40 (F := F) x0 x1 x2 x3 x5
      = Host.divf (Cert.ReferenceIdeal.ReadP.val_main_v39 (F := F))
          (addf (Cert.ReferenceIdeal.ReadP.val_main_v37 (F := F))
            (Host.exp (mulf (Cert.ReferenceIdeal.ReadP.val_main_v34 (F := F)) (Cert.ReferenceIdeal.ReadP.val_main_v33 (F := F) x0 x1 x2 x3 x5)))) := rfl

end Damp

/-- Negating after scaling by `16` is scaling by `-16`: the kernel's damping is the reference's. -/
theorem kdamp_eq (y : FVec Ideal S1600000 .f32) :
    kdamp (F := Ideal) y
      = Host.divf (Cert.ReferenceIdeal.ReadP.val_main_v39 (F := Ideal))
          (addf (Cert.ReferenceIdeal.ReadP.val_main_v37 (F := Ideal))
            (Host.exp (mulf (Cert.ReferenceIdeal.ReadP.val_main_v34 (F := Ideal)) y))) := by
  funext i
  show Ideal.div (Ideal.ofBits .f32 0x3F800000#32)
        (Ideal.ofBits .f32 0x3F800000#32 + Ideal.exp (-(Ideal.ofBits .f32 0x41800000#32 * y i)))
      = Ideal.div (Ideal.ofBits .f32 0x3F800000#32)
        (Ideal.ofBits .f32 0x3F800000#32 + Ideal.exp (Ideal.ofBits .f32 0xC1800000#32 * y i))
  rw [ofBits_neg_sixteen, neg_mul_eq_neg_mul']
theorem damp_eq (x0 : IVec S50000 32) (x1 : FVec Ideal S1600000 .f32) (x2 x3 : IVec S1600000 32) (x5 : FVec Ideal S95 .f32) :
    kdamp (F := Ideal) (Cert.ReferenceIdeal.ReadP.val_main_v33 (F := Ideal) x0 x1 x2 x3 x5)
      = Cert.ReferenceIdeal.ReadP.val_main_v40 (F := Ideal) x0 x1 x2 x3 x5 := by
  rw [v40_eq, kdamp_eq]

/-! ## The launch's buffers -/

variable (m : (ℓ : Loc nD τ sig) → Buf (Elt Ideal) ℓ) (c : Dev nD)

/-- The seven arguments' launch contents on core `c`. -/
abbrev arg0 : S50000.Idx → BitVec 32 := m ((c.tc : Thread nD τ).loc main_arg0)
abbrev arg1 : S1600000.Idx → EReal := m ((c.tc : Thread nD τ).loc main_arg1)
abbrev arg2 : S1600000.Idx → BitVec 32 := m ((c.tc : Thread nD τ).loc main_arg2)
abbrev arg3 : S1600000.Idx → BitVec 32 := m ((c.tc : Thread nD τ).loc main_arg3)
abbrev arg4 : S95x95x5x5x3.Idx → EReal := m ((c.tc : Thread nD τ).loc main_arg4)
abbrev arg5 : S95.Idx → EReal := m ((c.tc : Thread nD τ).loc main_arg5)
abbrev arg6 : S95.Idx → EReal := m ((c.tc : Thread nD τ).loc main_arg6)

/-- The two gathered atomic-number arrays are the reference's stages 8 and 15. -/
theorem zi_eq : (V m c main_v8 : S1600000.Idx → BitVec 32) = Cert.ReferenceIdeal.ReadP.val_main_v8 (F := Ideal) (arg0 m c) (arg2 m c) := by
  exact r_v8 (F := Ideal) (fun b => m (c, b))
theorem zj_eq : (V m c main_v15 : S1600000.Idx → BitVec 32) = Cert.ReferenceIdeal.ReadP.val_main_v15 (F := Ideal) (arg0 m c) (arg3 m c) := by
  exact r_v15 (F := Ideal) (fun b => m (c, b))

theorem packed_row0 (p : Fin 1600000) :
    (V m c main_v85 : S5x1600000.Idx → EReal) (ix2 0 p) = Cert.ReferenceIdeal.ReadP.val_main_v1 (F := Ideal) (arg1 m c) (ix1 p) := by
  have e := congrFun (r_v85 (F := Ideal) (fun b => m (c, b))) (ix2 0 p)
  rw [packed_at0] at e
  exact e
theorem packed_row1 (p : Fin 1600000) :
    (V m c main_v85 : S5x1600000.Idx → EReal) (ix2 1 p) = Cert.ReferenceIdeal.ReadP.val_main_v50 (F := Ideal) (arg0 m c) (arg1 m c) (arg2 m c) (arg3 m c) (arg5 m c) (ix1 p) := by
  have e := congrFun (r_v85 (F := Ideal) (fun b => m (c, b))) (ix2 1 p)
  rw [packed_at1, damp_eq, cn50_eq] at e
  exact e
theorem packed_row2 (p : Fin 1600000) :
    (V m c main_v85 : S5x1600000.Idx → EReal) (ix2 2 p) = Cert.ReferenceIdeal.ReadP.val_main_v57 (F := Ideal) (arg0 m c) (arg1 m c) (arg2 m c) (arg3 m c) (arg5 m c) (ix1 p) := by
  have e := congrFun (r_v85 (F := Ideal) (fun b => m (c, b))) (ix2 2 p)
  rw [packed_at2, damp_eq, cn57_eq] at e
  exact e
theorem packed_row3 (p : Fin 1600000) :
    (V m c main_v85 : S5x1600000.Idx → EReal) (ix2 3 p) = Cert.ReferenceIdeal.ReadP.val_main_v116 (F := Ideal) (arg0 m c) (arg2 m c) (arg6 m c) (ix1 p) := by
  have e := congrFun (r_v85 (F := Ideal) (fun b => m (c, b))) (ix2 3 p)
  rw [packed_at3] at e
  exact e
theorem packed_row4 (p : Fin 1600000) :
    (V m c main_v85 : S5x1600000.Idx → EReal) (ix2 4 p) = Cert.ReferenceIdeal.ReadP.val_main_v124 (F := Ideal) (arg0 m c) (arg3 m c) (arg6 m c) (ix1 p) := by
  have e := congrFun (r_v85 (F := Ideal) (fun b => m (c, b))) (ix2 4 p)
  rw [packed_at4] at e
  exact e

end Cert.KernelIdeal.Packed

end
-- ==== Proof.LibGather.lean ====
/-
  Two `stablehlo.gather`s read at an index, for any extents.

  * The take along the LAST axis of a rank-3 table: operand `[A, B, N]`, start indices an `[n, 1]` column, result
    `[A, B, n]`; the first two axes are offset axes carried whole, the last is collapsed and start-indexed. Result
    element `(a, b, p)` is the table's at `(a, b, s)`, `s` the start index of position `p` read signed and clamped
    into `[0, N - 1]`.
  * The lookup of a trailing block by TWO indices: operand `[A, B, C, D, E]`, start indices `[n, 2]`, result
    `[n, C, D, E]`; the first two operand axes are collapsed and start-indexed by the two columns, the last three
    are offset axes. Result element `(p, u, v, w)` is the table's at `(s₀, s₁, u, v, w)`, each `sₖ` the `k`-th start
    index of row `p` read signed and clamped into its axis.
-/
import Idealize.ShloMosaic.Lib.ValueIdx
import Idealize.ShloMosaic.Lib.StableHlo.Predicate

noncomputable section

namespace Cert.LibGather

open Idealize.ShloMosaic Idealize.ShloMosaic.ValueIdx

/-- Row `p`, column `k` of an `[n, 2]` table of start indices. -/
abbrev iP2 {n : Nat} (p : Fin n) (k : Fin 2) : (⟨2, ![n, 2]⟩ : Shape).Idx := fun | ⟨0, _⟩ => p | ⟨1, _⟩ => k

/-- The take along the last axis of a rank-3 table, read at `(a, b, p)`. -/
theorem gather_take_last {α : Type} {A B N n w : Nat} (d : GatherDims ⟨3, ![A, B, N]⟩ ⟨2, ![n, 1]⟩ ⟨3, ![A, B, n]⟩)
    (hoff : d.offsetDims = [0, 1]) (hcoll : d.collapsedSliceDims = [2]) (hob : d.operandBatchingDims = [])
    (hsb : d.startIndicesBatchingDims = []) (hsim : d.startIndexMap = [2]) (hivd : d.indexVectorDim = 1)
    (x : (⟨3, ![A, B, N]⟩ : Shape).Idx → α) (idx : IVec ⟨2, ![n, 1]⟩ w) (a : Fin A) (b : Fin B) (p : Fin n) (hN : 0 < N) :
    Host.gather d x idx (ix3 a b p)
      = x (ix3 a b ⟨min (idx (StableHlo.Predicate.ixP p)).toInt.toNat (N - 1), by omega⟩) := by
  obtain ⟨od, cd, ob, sb, sm, iv, ss, wf⟩ := d
  dsimp only at hoff hcoll hob hsb hsim hivd
  subst hoff hcoll hob hsb hsim hivd
  -- the collapsed axis has slice size 1
  have hsl : ∀ h, ss ⟨2, h⟩ = 1 := fun _ =>
    GatherDims.slice_collapsed (⟨[0, 1], [2], [], [], [2], 1, ss, wf⟩ :
      GatherDims ⟨3, ![A, B, N]⟩ ⟨2, ![n, 1]⟩ ⟨3, ![A, B, n]⟩) 2 (List.mem_singleton.mpr rfl)
  -- the start index of result position (a, b, p) is read at row p of the column
  have hsi : ∀ c, GatherDims.siIdx (⟨[0, 1], [2], [], [], [2], 1, ss, wf⟩ :
      GatherDims ⟨3, ![A, B, N]⟩ ⟨2, ![n, 1]⟩ ⟨3, ![A, B, n]⟩) (ix3 a b p) c = StableHlo.Predicate.ixP p := by
    intro c
    funext q
    match q with
    | ⟨0, _⟩ => rfl
    | ⟨1, _⟩ =>
      show (_ : Fin 1) = _
      exact Subsingleton.elim _ _
  unfold Host.gather
  congr 1
  funext c
  apply Fin.ext
  match c with
  | ⟨0, _⟩ =>
    -- an offset axis: start 0, no batching, the result's own coordinate
    show _ = a.val
    exact Eq.trans (b := 0 + 0 + a.val) rfl (by omega)
  | ⟨1, _⟩ =>
    show _ = b.val
    exact Eq.trans (b := 0 + 0 + b.val) rfl (by omega)
  | ⟨2, _⟩ =>
    -- the collapsed, start-indexed axis: the clamped start index alone
    show min (idx (GatherDims.siIdx _ _ _)).toInt.toNat (N - ss _) + 0 + 0 = min _ (N - 1)
    rw [hsi, hsl]
    rfl

/-- The lookup of a trailing block by two start indices, read at `(p, u, v, w)`. -/
theorem gather_pair_block {α : Type} {A B C D E n w : Nat}
    (d : GatherDims ⟨5, ![A, B, C, D, E]⟩ ⟨2, ![n, 2]⟩ ⟨4, ![n, C, D, E]⟩)
    (hoff : d.offsetDims = [1, 2, 3]) (hcoll : d.collapsedSliceDims = [0, 1]) (hob : d.operandBatchingDims = [])
    (hsb : d.startIndicesBatchingDims = []) (hsim : d.startIndexMap = [0, 1]) (hivd : d.indexVectorDim = 1)
    (x : (⟨5, ![A, B, C, D, E]⟩ : Shape).Idx → α) (idx : IVec ⟨2, ![n, 2]⟩ w) (p : Fin n) (u : Fin C) (v : Fin D) (z : Fin E)
    (hA : 0 < A) (hB : 0 < B) :
    Host.gather d x idx (ix4 p u v z)
      = x (ix5 ⟨min (idx (iP2 p 0)).toInt.toNat (A - 1), by omega⟩ ⟨min (idx (iP2 p 1)).toInt.toNat (B - 1), by omega⟩ u v z) := by
  obtain ⟨od, cd, ob, sb, sm, iv, ss, wf⟩ := d
  dsimp only at hoff hcoll hob hsb hsim hivd
  subst hoff hcoll hob hsb hsim hivd
  -- the two collapsed axes have slice size 1
  have hsl0 : ∀ h, ss ⟨0, h⟩ = 1 := fun _ =>
    GatherDims.slice_collapsed (⟨[1, 2, 3], [0, 1], [], [], [0, 1], 1, ss, wf⟩ :
      GatherDims ⟨5, ![A, B, C, D, E]⟩ ⟨2, ![n, 2]⟩ ⟨4, ![n, C, D, E]⟩) 0 (List.mem_cons_self)
  have hsl1 : ∀ h, ss ⟨1, h⟩ = 1 := fun _ =>
    GatherDims.slice_collapsed (⟨[1, 2, 3], [0, 1], [], [], [0, 1], 1, ss, wf⟩ :
      GatherDims ⟨5, ![A, B, C, D, E]⟩ ⟨2, ![n, 2]⟩ ⟨4, ![n, C, D, E]⟩) 1 (List.mem_cons_of_mem _ List.mem_cons_self)
  -- component k of the start index of result position (p, u, v, z) is read at row p, column k
  have hsi : ∀ c, GatherDims.siIdx (⟨[1, 2, 3], [0, 1], [], [], [0, 1], 1, ss, wf⟩ :
      GatherDims ⟨5, ![A, B, C, D, E]⟩ ⟨2, ![n, 2]⟩ ⟨4, ![n, C, D, E]⟩) (ix4 p u v z) c = iP2 p ⟨c.val, c.isLt⟩ := by
    intro c
    funext q
    match q with
    | ⟨0, _⟩ => rfl
    | ⟨1, _⟩ => rfl
  unfold Host.gather
  congr 1
  funext c
  apply Fin.ext
  match c with
  | ⟨0, _⟩ =>
    -- a collapsed axis indexed by column 0: the clamped start index alone
    show min (idx (GatherDims.siIdx _ _ _)).toInt.toNat (A - ss _) + 0 + 0 = min _ (A - 1)
    rw [hsi, hsl0]
    rfl
  | ⟨1, _⟩ =>
    -- a collapsed axis indexed by column 1
    show min (idx (GatherDims.siIdx _ _ _)).toInt.toNat (B - ss _) + 0 + 0 = min _ (B - 1)
    rw [hsi, hsl1]
    rfl
  | ⟨2, _⟩ =>
    -- an offset axis: start 0, no batching, the result's coordinate on the matching offset axis
    show _ = u.val
    exact Eq.trans (b := 0 + 0 + u.val) rfl (by omega)
  | ⟨3, _⟩ =>
    show _ = v.val
    exact Eq.trans (b := 0 + 0 + v.val) rfl (by omega)
  | ⟨4, _⟩ =>
    show _ = z.val
    exact Eq.trans (b := 0 + 0 + z.val) rfl (by omega)

end Cert.LibGather

end
-- ==== Proof.KITableK.lean ====
/-
  The kernel's `[75, 1600000]` table read at one entry, down to the reference table.

  Before the launch the kernel's program reshapes the `[95, 95, 5, 5, 3]` table to `[9025, 25, 3]`, transposes it to
  `[3, 25, 9025]`, forms the flat index `95·zi + zj` of each pair from its two gathered atomic numbers, takes the
  table's last axis at that index (negative indices shifted by 9025, out-of-range reads masked), and reshapes
  `[3, 25, 1600000]` to `[75, 1600000]`. With `zi, zj < 95` the flat index is below 9025: the 32-bit product and sum
  do not wrap, the index is not negative, the mask is set and the clamp does not bind. Row `25·s + k` at pair `p`
  is then the table at `(zi, zj, k / 5, k % 5, s)`: row-major position `((95·zi + zj)·25 + k)·3 + s`.
-/
import proofs.«431380_j22763326669101_3_alg».proof.Proof.KIFrame
import proofs.«431380_j22763326669101_3_alg».proof.Proof.PairFn
import proofs.«431380_j22763326669101_3_alg».proof.Proof.LibGather
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

set_option maxRecDepth 16384

noncomputable section

namespace Cert.KernelIdeal.TableK

open Cert.KernelIdeal Cert.KernelIdeal.Gen Cert.KernelIdeal.Hand
open Idealize.ShloMosaic Idealize.ShloMosaic.TcCoe Idealize.ShloMosaic.ValueIdx
open Idealize.SL Idealize.SL.Sem
open Cert.D3

/-- A transport along an equation of a type with itself is the identity. -/
theorem cast_same {α : Sort _} (h : α = α) (a : α) : cast h a = a := eq_of_heq (cast_heq h a)

/-! ## The take, as one function of the transposed table and the flat index -/

section Take

variable {F : FTy → Type} [FloatOps F]

/-- The flat index as the take reads it: shifted by 9025 where negative, laid as a column. -/
def col (f : IVec S1600000 32) : IVec S1600000x1 32 :=
  broadcastInDim S1600000x1 ![0] bcast_S1600000_S1600000x1_0
    (select (cmpi .slt f (broadcastInDim S1600000 ![] bcast_S_S1600000 (constantI S_ 32 0#32)))
      (addi f (broadcastInDim S1600000 ![] bcast_S_S1600000 (constantI S_ 32 9025#32))) f)

/-- The in-range mask of a column of indices: `0 ≤ x ≤ 9024`, reduced over the unit axis. -/
def inRange (x : IVec S1600000x1 32) : IVec S1600000 1 :=
  Host.reduce IntOp.andi
    (andi (cmpi .sge x (broadcastInDim S1600000x1 ![] bcast_S_S1600000x1 (constantI S_ 32 0#32)))
      (cmpi .sle x (broadcastInDim S1600000x1 ![0, 1] bcast_S1x1_S1600000x1_0_1
        (broadcastInDim S1x1 ![1] bcast_S1_S1x1_1 (constantI S1 32 9024#32)))))
    (constantI S_ 1 1#1) reducesTo_S1600000x1_S1600000_d1 h_S_

/-- The take along the last axis: the gathered entries where the index is in range, NaN elsewhere. -/
def take (t : FVec F S3x25x9025 .f32) (f : IVec S1600000 32) : FVec F S3x25x1600000 .f32 :=
  select (broadcastInDim S3x25x1600000 ![2] bcast_S1600000_S3x25x1600000_2 (inRange (col f)))
    (Host.gather gather_S3x25x9025_S1600000x1_S3x25x1600000_01_2_n_n_2_1_3251 t (col f))
    (broadcastInDim S3x25x1600000 ![] bcast_S_S3x25x1600000 (constant S_ .f32 0x7FC00000#32))

end Take

/-! ## The program's three stretches of host operations, read at the table's buffers -/

section Chain

variable {F : FTy → Type} [FloatOps F]

/-- The contents at the launch, stretch by stretch. -/
theorem V0_split (m : (ℓ : Loc nD τ sig) → Buf (Elt F) ℓ) (c : Dev nD) :
    V0 m c = StableHlo.after hostOps0_2 (StableHlo.after hostOps0_1 (StableHlo.after hostOps0 (fun b => m (c, b)))) := by
  dsimp only [V0]
  rw [List.flatten_cons, List.flatten_cons, List.flatten_cons, List.flatten_nil, List.append_nil,
    StableHlo.after_append, StableHlo.after_append]

/-- The last stretch reshapes the taken table. -/
theorem stretch2_v79 (W : Valuation τ sig (Elt F)) :
    (StableHlo.after hostOps0_2 W (Proc.devRef .tc main_v79) : (⟨S75x1600000, .f32⟩ : BufTy).Contents (Elt F))
      = fun i => shapeCast S75x1600000 (W (Proc.devRef .tc main_v78) : (⟨S3x25x1600000, .f32⟩ : BufTy).Contents (Elt F))
          shapeCasts_S3x25x1600000_S75x1600000 i := by
  after_results
  rfl

/-- It leaves the two gathered atomic numbers alone. -/
theorem stretch2_v8 (W : Valuation τ sig (Elt F)) :
    StableHlo.after hostOps0_2 W (Proc.devRef .tc main_v8) = W (Proc.devRef .tc main_v8) := by
  after_results
theorem stretch2_v15 (W : Valuation τ sig (Elt F)) :
    StableHlo.after hostOps0_2 W (Proc.devRef .tc main_v15) = W (Proc.devRef .tc main_v15) := by
  after_results

/-- The middle stretch is the take of the transposed table at the flat index. -/
theorem stretch1_v78 (W : Valuation τ sig (Elt F)) :
    (StableHlo.after hostOps0_1 W (Proc.devRef .tc main_v78) : (⟨S3x25x1600000, .f32⟩ : BufTy).Contents (Elt F))
      = take (W (Proc.devRef .tc main_v74) : (⟨S3x25x9025, .f32⟩ : BufTy).Contents (Elt F))
          (W (Proc.devRef .tc main_v77) : (⟨S1600000, .i32⟩ : BufTy).Contents (Elt F)) := by
  after_results_simp
  simp only [StableHlo.TRef.ofBuf, StableHlo.TRef.toBuf, cast_same]
  unfold take inRange col
  exact rfl

/-- It too leaves the two gathered atomic numbers alone. -/
theorem stretch1_v8 (W : Valuation τ sig (Elt F)) :
    StableHlo.after hostOps0_1 W (Proc.devRef .tc main_v8) = W (Proc.devRef .tc main_v8) := by
  after_results_simp
theorem stretch1_v15 (W : Valuation τ sig (Elt F)) :
    StableHlo.after hostOps0_1 W (Proc.devRef .tc main_v15) = W (Proc.devRef .tc main_v15) := by
  after_results_simp

/-- The first stretch ends with the flat index: 95 times the first atomic number plus the second. -/
theorem stretch0_v77 (M : Valuation τ sig (Elt F)) :
    (StableHlo.after hostOps0 M (Proc.devRef .tc main_v77) : (⟨S1600000, .i32⟩ : BufTy).Contents (Elt F))
      = addi (muli (StableHlo.after hostOps0 M (Proc.devRef .tc main_v8) : (⟨S1600000, .i32⟩ : BufTy).Contents (Elt F))
            (broadcastInDim S1600000 ![] bcast_S_S1600000 (constantI S_ 32 95#32)))
          (StableHlo.after hostOps0 M (Proc.devRef .tc main_v15) : (⟨S1600000, .i32⟩ : BufTy).Contents (Elt F)) := by
  after_results_simp

/-- And with the table reshaped to `[9025, 25, 3]` and transposed to `[3, 25, 9025]`. -/
theorem stretch0_v74 (M : Valuation τ sig (Elt F)) :
    (StableHlo.after hostOps0 M (Proc.devRef .tc main_v74) : (⟨S3x25x9025, .f32⟩ : BufTy).Contents (Elt F))
      = transpose S3x25x9025 [2, 1, 0]
          (fun i => shapeCast S9025x25x3 (M (Proc.devRef .tc main_arg4) : (⟨S95x95x5x5x3, .f32⟩ : BufTy).Contents (Elt F))
            shapeCasts_S95x95x5x5x3_S9025x25x3 i)
          transposes_S9025x25x3_S3x25x9025_2_1_0 := by
  after_results_simp
  rfl

end Chain

/-! ## The take read at one entry -/

section Values

open Idealize.ShloMosaic.StableHlo.Predicate (ixP)

variable {F : FTy → Type} [FloatOps F]

/-- A left fold by `and` from 1 over 1s is 1. -/
theorem foldl_andi_one {ι : Type} (x : ι → BitVec 1) :
    ∀ (l : List ι) (r : BitVec 1), r = 1#1 → (∀ i ∈ l, x i = 1#1) → l.foldl (fun r i => IntOp.andi r (x i)) r = 1#1
  | [], _, hr, _ => hr
  | a :: l, r, hr, hl => by
    rw [List.foldl_cons]
    exact foldl_andi_one x l _ (by rw [hr, hl a List.mem_cons_self]; decide) fun i hi => hl i (List.mem_cons_of_mem _ hi)

/-- A reduce by `and` over the unit axis of an `[n, 1]` column of bits is 1 at `p` when the column's bit in row `p` and
    the initial bit are: row `p` is the one index that drops to `p`. -/
theorem reduce_andi_col {n : Nat} (x : IVec ⟨2, ![n, 1]⟩ 1) {u : Shape} (init : IVec u 1)
    (h : (⟨2, ![n, 1]⟩ : Shape).ReducesTo [1] ⟨1, ![n]⟩) (hu : 0 < u.numel) (p : Fin n)
    (hx : x (ixP p) = 1#1) (hi : init (Shape.Idx.first hu) = 1#1) :
    Host.reduce IntOp.andi x init h hu (ix1 p) = 1#1 := by
  rw [Host.reduce_eq_foldl]
  refine foldl_andi_one x _ _ hi fun i hi' => ?_
  have hd : h.drop i = ix1 p := of_decide_eq_true (List.mem_filter.1 hi').2
  have hv : (h.drop i 0 : Nat) = i 0 := Shape.ReducesTo.drop_apply_val h i 0
  rw [hd] at hv
  have e : i = ixP p := by
    funext b
    match b with
    | ⟨0, _⟩ => exact Fin.ext hv.symm
    | ⟨1, _⟩ =>
      show (_ : Fin 1) = _
      exact Subsingleton.elim _ _
  rw [e]
  exact hx

/-- A flat index below 2³¹ is not negative as a signed word: the column holds it unshifted. -/
theorem col_at (f : IVec S1600000 32) (p : Fin 1600000) (hf : (f (ix1 p)).toNat < 2 ^ 31) :
    col f (ixP p) = f (ix1 p) := by
  unfold col
  refine (broadcastInDim_apply _ _ _ (ixP p) (ix1 p) ?_).trans ?_
  · intro a
    match a with
    | ⟨0, _⟩ => rfl
  · show Scalar.select (IntOp.cmpi .slt (f (ix1 p)) 0#32) (IntOp.addi (f (ix1 p)) 9025#32) (f (ix1 p)) = f (ix1 p)
    have h0 : IntOp.cmpi .slt (f (ix1 p)) 0#32 = 0#1 :=
      eq_zero_of_ne_one fun h => Nat.not_lt_zero _ ((StableHlo.Predicate.slt_iff_toNat hf (by decide)).1 h)
    rw [h0, select_zero]

/-- An index below 9025 is in range: both comparisons hold and their conjunction survives the reduce. -/
theorem inRange_at (x : IVec S1600000x1 32) (p : Fin 1600000) (hx : (x (ixP p)).toNat < 9025) :
    inRange x (ix1 p) = 1#1 := by
  unfold inRange
  refine reduce_andi_col _ _ _ _ p ?_ rfl
  show IntOp.andi (IntOp.cmpi .sge (x (ixP p)) 0#32) (IntOp.cmpi .sle (x (ixP p)) 9024#32) = 1#1
  have h9 : (9024#32 : BitVec 32).toNat = 9024 := rfl
  rw [(StableHlo.Predicate.sge_iff_toNat (by omega) (by decide)).2 (Nat.zero_le _),
    (StableHlo.Predicate.sle_iff_toNat (by omega) (by decide)).2 (by omega)]
  decide

/-- The take at `(s, k, p)` with the flat index of `p` below 9025 is the table at `(s, k, that index)`. -/
theorem take_at (t : FVec F S3x25x9025 .f32) (f : IVec S1600000 32) (s : Fin 3) (k : Fin 25) (p : Fin 1600000)
    (hf : (f (ix1 p)).toNat < 9025) :
    take t f (ix3 s k p) = t (ix3 s k ⟨(f (ix1 p)).toNat, hf⟩) := by
  have hc : col f (ixP p) = f (ix1 p) := col_at f p (by omega)
  have hm : inRange (col f) (ix1 p) = 1#1 := inRange_at (col f) p (by rw [hc]; exact hf)
  have hb : broadcastInDim S3x25x1600000 ![2] bcast_S1600000_S3x25x1600000_2 (inRange (col f)) (ix3 s k p)
      = inRange (col f) (ix1 p) :=
    broadcastInDim_apply _ _ _ _ _ fun a => match a with | ⟨0, _⟩ => rfl
  unfold take
  show Scalar.select (broadcastInDim S3x25x1600000 ![2] bcast_S1600000_S3x25x1600000_2 (inRange (col f)) (ix3 s k p))
      (Host.gather gather_S3x25x9025_S1600000x1_S3x25x1600000_01_2_n_n_2_1_3251 t (col f) (ix3 s k p)) _ = _
  rw [hb, hm, select_one,
    Cert.LibGather.gather_take_last _ rfl rfl rfl rfl rfl rfl t (col f) s k p (by decide)]
  refine congrArg (fun q => t (ix3 s k q)) (Fin.ext ?_)
  show min (col f (ixP p)).toInt.toNat (9025 - 1) = (f (ix1 p)).toNat
  rw [hc, StableHlo.Predicate.toInt_eq_toNat_of_lt (by omega), Int.toNat_natCast]
  exact Nat.min_eq_left (by omega)

/-- The 32-bit product and sum of two atomic numbers below 95 do not wrap. -/
theorem flat_at (z8 z15 : IVec S1600000 32) (p : Fin 1600000) (hi : (z8 (ix1 p)).toNat < 95)
    (hj : (z15 (ix1 p)).toNat < 95) :
    (addi (muli z8 (broadcastInDim S1600000 ![] bcast_S_S1600000 (constantI S_ 32 95#32))) z15 (ix1 p)).toNat
      = (z8 (ix1 p)).toNat * 95 + (z15 (ix1 p)).toNat := by
  show (IntOp.addi (IntOp.muli (z8 (ix1 p)) 95#32) (z15 (ix1 p))).toNat = _
  unfold IntOp.addi IntOp.muli
  rw [BitVec.toNat_add, BitVec.toNat_mul]
  have h95 : (95#32 : BitVec 32).toNat = 95 := rfl
  have h1 : (z8 (ix1 p)).toNat * 95 % 2 ^ 32 = (z8 (ix1 p)).toNat * 95 := Nat.mod_eq_of_lt (by omega)
  rw [h95, h1]
  exact Nat.mod_eq_of_lt (by omega)

/-- The reshaped and transposed table at `(s, k, 95·zi + zj)` is the table at `(zi, zj, k / 5, k % 5, s)`: both are at
    row-major position `((95·zi + zj)·25 + k)·3 + s`. -/
theorem table_at_flat {α : Type} (x : S95x95x5x5x3.Idx → α) (s : Fin 3) (k : Fin 25) (zi zj : Fin 95) (q : Fin 9025)
    (hq : q.val = zi.val * 95 + zj.val) :
    transpose S3x25x9025 [2, 1, 0] (fun i => shapeCast S9025x25x3 x shapeCasts_S95x95x5x5x3_S9025x25x3 i)
        transposes_S9025x25x3_S3x25x9025_2_1_0 (ix3 s k q)
      = x (ix5 zi zj ⟨k.val / 5, by omega⟩ ⟨k.val % 5, by omega⟩ s) := by
  refine (transpose_apply _ _ _ (ix3 s k q) (ix3 q k s) ?_).trans ?_
  · intro b
    match b with
    | ⟨0, _⟩ => rfl
    | ⟨1, _⟩ => rfl
    | ⟨2, _⟩ => rfl
  · refine shapeCast_apply x _ (ix3 q k s) _ ?_
    rw [Shape.rowMajor_val_five, Shape.rowMajor_val_three]
    show (((zi.val * 95 + zj.val) * 5 + k.val / 5) * 5 + k.val % 5) * 3 + s.val = (q.val * 25 + k.val) * 3 + s.val
    omega

/-- Row `25·s + k` of the `[75, 1600000]` reshape is entry `(s, k)` of the `[3, 25, 1600000]` array. -/
theorem reshape_at {α : Type} (x : S3x25x1600000.Idx → α) (s : Fin 3) (k : Fin 25) (p : Fin 1600000) :
    shapeCast S75x1600000 x shapeCasts_S3x25x1600000_S75x1600000 (ix2 (slab s k) p) = x (ix3 s k p) := by
  refine shapeCast_apply x _ _ (ix3 s k p) ?_
  rw [Shape.rowMajor_val_three, Shape.rowMajor_val_two]
  show (s.val * 25 + k.val) * 1600000 + p.val = (25 * s.val + k.val) * 1600000 + p.val
  omega

end Values

/-! ## The table at one entry -/

variable (m : (ℓ : Loc nD τ sig) → Buf (Elt Ideal) ℓ) (c : Dev nD)

/-- The two gathered atomic numbers of pair `p`, as the launch finds them. -/
abbrev zi (p : Fin 1600000) : BitVec 32 := (V m c main_v8 : S1600000.Idx → BitVec 32) (ix1 p)
abbrev zj (p : Fin 1600000) : BitVec 32 := (V m c main_v15 : S1600000.Idx → BitVec 32) (ix1 p)

/-- With both atomic numbers of pair `p` below 95, row `25·s + k` of the kernel's table at `p` is the reference table at
    `(zi, zj, k / 5, k % 5, s)`. -/
theorem table_at (s : Fin 3) (k : Fin 25) (p : Fin 1600000) (hi : (zi m c p).toNat < 95) (hj : (zj m c p).toNat < 95) :
    (V m c main_v79 : S75x1600000.Idx → EReal) (ix2 (slab s k) p)
      = (m ((c.tc : Thread nD τ).loc main_arg4) : S95x95x5x5x3.Idx → EReal)
          (ix5 ⟨(zi m c p).toNat, hi⟩ ⟨(zj m c p).toNat, hj⟩ ⟨k.val / 5, by omega⟩ ⟨k.val % 5, by omega⟩ s) := by
  -- the two atomic numbers are the first stretch's: the later stretches do not write them
  have e8 : (V m c main_v8 : S1600000.Idx → BitVec 32)
      = StableHlo.after hostOps0 (fun b => m (c, b)) (Proc.devRef .tc main_v8) := by
    show V0 m c (Proc.devRef .tc main_v8) = _
    rw [V0_split, stretch2_v8, stretch1_v8]
  have e15 : (V m c main_v15 : S1600000.Idx → BitVec 32)
      = StableHlo.after hostOps0 (fun b => m (c, b)) (Proc.devRef .tc main_v15) := by
    show V0 m c (Proc.devRef .tc main_v15) = _
    rw [V0_split, stretch2_v15, stretch1_v15]
  -- the statement over any two arrays equal to them
  have key : ∀ (z8 z15 : S1600000.Idx → BitVec 32),
      z8 = StableHlo.after hostOps0 (fun b => m (c, b)) (Proc.devRef .tc main_v8) →
      z15 = StableHlo.after hostOps0 (fun b => m (c, b)) (Proc.devRef .tc main_v15) →
      ∀ (hi : (z8 (ix1 p)).toNat < 95) (hj : (z15 (ix1 p)).toNat < 95),
        (V m c main_v79 : S75x1600000.Idx → EReal) (ix2 (slab s k) p)
          = (m ((c.tc : Thread nD τ).loc main_arg4) : S95x95x5x5x3.Idx → EReal)
              (ix5 ⟨(z8 (ix1 p)).toNat, hi⟩ ⟨(z15 (ix1 p)).toNat, hj⟩ ⟨k.val / 5, by omega⟩ ⟨k.val % 5, by omega⟩ s) := by
    rintro _ _ rfl rfl hi hj
    -- the flat index is 95·zi + zj, below 9025
    have hf := flat_at _ _ p hi hj
    rw [← stretch0_v77] at hf
    show (V0 m c (Proc.devRef .tc main_v79) : S75x1600000.Idx → EReal) (ix2 (slab s k) p) = _
    rw [V0_split, stretch2_v79, stretch1_v78]
    refine (reshape_at _ s k p).trans ?_
    refine (take_at _ _ s k p (by rw [hf]; omega)).trans ?_
    rw [stretch0_v74]
    exact table_at_flat _ s k ⟨_, hi⟩ ⟨_, hj⟩ _ hf
  exact key _ _ e8 e15 hi hj

end Cert.KernelIdeal.TableK

end
-- ==== Proof.RefTable.lean ====
/-
  The reference's gathered table block read at one entry, down to the reference table; and the range of the two
  gathered atomic numbers.

  The reference gathers each pair's two atomic numbers from the atom array (an entry of it, whatever the pair
  index: the take clamps), shifts a negative one by 95, joins the two as the columns of a `[1600000, 2]` index table,
  looks the table's trailing `[5, 5, 3]` block up by the two (each clamped to its axis) and flattens the `5 × 5`
  points to 25. With both numbers below 95 neither shift nor clamp binds: the block at `(p, k, s)` is the table at
  `(zi, zj, k / 5, k % 5, s)`.
-/
import proofs.«431380_j22763326669101_3_alg».proof.Proof.ReadP
import proofs.«431380_j22763326669101_3_alg».proof.Proof.LibGather
import Idealize.ShloMosaic.Lib.ValueIdx
import Idealize.ShloMosaic.Lib.ValueLayout
import Idealize.ShloMosaic.Lib.Pipeline.Value
import Idealize.ShloMosaic.Lib.StableHlo.Predicate

set_option maxRecDepth 16384

noncomputable section

namespace Cert.ReferenceIdeal.RefTable

open Cert.ReferenceIdeal Cert.ReferenceIdeal.Gen Cert.ReferenceIdeal.ReadP
open Idealize.ShloMosaic Idealize.ShloMosaic.ValueIdx

variable (x0 : IVec S50000 32) (x1 : FVec Ideal S1600000 .f32) (x2 x3 : IVec S1600000 32) (x4 : FVec Ideal S95x95x5x5x3 .f32) (x5 x6 : FVec Ideal S95 .f32)

/-- The rank-1 index at `p`, in its two spellings. -/
theorem ix1_eq_ofFin {n : Nat} (p : Fin n) : ix1 p = Shape.Idx.ofFin p := by
  funext d
  match d with
  | ⟨0, _⟩ => exact Fin.ext rfl

/-- A gathered atomic number is an entry of the atom array: below 95 when every entry is. -/
theorem zi_lt (hZa : ∀ i, (x0 i).toNat < 95) (p : Fin 1600000) : (val_main_v8 (F := Ideal) x0 x2 (ix1 p)).toNat < 95 := by
  -- the take reads the array at the (clamped) start index of position p
  have e := StableHlo.Predicate.gather_take gather_S50000_S1600000x1_S1600000_n_0_n_n_0_1_1 rfl rfl rfl rfl x0
    (val_main_v7 (F := Ideal) x2) p (by decide)
  rw [ix1_eq_ofFin]
  unfold val_main_v8
  rw [e]
  exact hZa _
theorem zj_lt (hZa : ∀ i, (x0 i).toNat < 95) (p : Fin 1600000) : (val_main_v15 (F := Ideal) x0 x3 (ix1 p)).toNat < 95 := by
  have e := StableHlo.Predicate.gather_take gather_S50000_S1600000x1_S1600000_n_0_n_n_0_1_1 rfl rfl rfl rfl x0
    (val_main_v14 (F := Ideal) x3) p (by decide)
  rw [ix1_eq_ofFin]
  unfold val_main_v15
  rw [e]
  exact hZa _

/-- A word below 95 is not negative, so the shift of a negative word by 95 leaves it as it is. -/
theorem shift_id (z : BitVec 32) (hz : z.toNat < 95) :
    Scalar.select (IntOp.cmpi .slt z 0#32) (IntOp.addi z 95#32) z = z := by
  have hn : ¬ (IntOp.cmpi .slt z 0#32 = 1#1) := by
    rw [StableHlo.Predicate.slt_iff_toNat (by omega) (by decide)]
    exact Nat.not_lt_zero _
  exact if_neg hn

/-- A word below 95, read signed and clamped into `[0, 94]`, is its own value. -/
theorem clamp_id (z : BitVec 32) (hz : z.toNat < 95) : min z.toInt.toNat (95 - 1) = z.toNat := by
  rw [StableHlo.Predicate.toInt_eq_toNat_of_lt (by omega), Int.toNat_natCast]
  omega

/-- Column 0 of the joined index table, at row `p`: the first gathered atomic number, unshifted when below 95. -/
theorem col0 (p : Fin 1600000) (hi : (val_main_v8 (F := Ideal) x0 x2 (ix1 p)).toNat < 95) :
    val_main_v70 (F := Ideal) x0 x2 x3 (Cert.LibGather.iP2 p 0) = val_main_v8 (F := Ideal) x0 x2 (ix1 p) := by
  unfold val_main_v70
  -- coordinate 0 on the joined axis falls in the first piece
  rw [concatenate_pair_apply_left (1 : Fin 2) (val_main_v68 (F := Ideal) x0 x2) (val_main_v69 (F := Ideal) x0 x3)
    concatenates_S1600000x1_S1600000x1_S1600000x2_d1 (Cert.LibGather.iP2 p 0) rfl (StableHlo.Predicate.ixP p)
    (fun b => match b with | ⟨0, _⟩ => rfl | ⟨1, _⟩ => rfl)]
  rw [val_main_v68_apply]
  have ei : idx_main_v68 (StableHlo.Predicate.ixP p) = ix1 p := by
    funext d
    match d with
    | ⟨0, _⟩ => rfl
  rw [ei, val_main_v62_apply, val_main_v59_apply, val_main_v61_apply, val_main_v58_apply, val_main_v60_apply]
  exact shift_id _ hi

/-- Column 1 of the joined index table, at row `p`: the second gathered atomic number, unshifted when below 95. -/
theorem col1 (p : Fin 1600000) (hj : (val_main_v15 (F := Ideal) x0 x3 (ix1 p)).toNat < 95) :
    val_main_v70 (F := Ideal) x0 x2 x3 (Cert.LibGather.iP2 p 1) = val_main_v15 (F := Ideal) x0 x3 (ix1 p) := by
  unfold val_main_v70
  -- coordinate 1 on the joined axis falls in the second piece, at its coordinate 0
  rw [concatenate_pair_apply_right (1 : Fin 2) (val_main_v68 (F := Ideal) x0 x2) (val_main_v69 (F := Ideal) x0 x3)
    concatenates_S1600000x1_S1600000x1_S1600000x2_d1 (Cert.LibGather.iP2 p 1) rfl rfl (StableHlo.Predicate.ixP p)
    (fun b => match b with | ⟨0, _⟩ => fun _ => rfl | ⟨1, _⟩ => fun h => absurd rfl h) rfl]
  rw [val_main_v69_apply]
  have ei : idx_main_v69 (StableHlo.Predicate.ixP p) = ix1 p := by
    funext d
    match d with
    | ⟨0, _⟩ => rfl
  rw [ei, val_main_v67_apply, val_main_v64_apply, val_main_v66_apply, val_main_v63_apply, val_main_v65_apply]
  exact shift_id _ hj

/-- The flattened index `(p, k, s)` of the `[1600000, 25, 3]` block is `(p, k / 5, k % 5, s)` of the `[1600000, 5, 5, 3]` one. -/
theorem idx72 (s : Fin 3) (k : Fin 25) (p : Fin 1600000) :
    idx_main_v72 (ix3 p k s) = ix4 p (⟨k.val / 5, by omega⟩ : Fin 5) (⟨k.val % 5, by omega⟩ : Fin 5) s := by
  have hp := p.isLt
  have hk := k.isLt
  have hs := s.isLt
  funext a
  match a with
  | ⟨0, _⟩ =>
    apply Fin.ext
    show ((p.val * 25 + k.val) * 3 + s.val) / 75 = p.val
    omega
  | ⟨1, _⟩ =>
    apply Fin.ext
    show ((p.val * 25 + k.val) * 3 + s.val) / 15 % 5 = k.val / 5
    omega
  | ⟨2, _⟩ =>
    apply Fin.ext
    show ((p.val * 25 + k.val) * 3 + s.val) / 3 % 5 = k.val % 5
    omega
  | ⟨3, _⟩ =>
    apply Fin.ext
    show ((p.val * 25 + k.val) * 3 + s.val) % 3 = s.val
    omega

/-- With both atomic numbers of pair `p` below 95, the gathered block at `(p, k, s)` is the table at
    `(zi, zj, k / 5, k % 5, s)`. -/
theorem block_at (s : Fin 3) (k : Fin 25) (p : Fin 1600000)
    (hi : (val_main_v8 (F := Ideal) x0 x2 (ix1 p)).toNat < 95) (hj : (val_main_v15 (F := Ideal) x0 x3 (ix1 p)).toNat < 95) :
    val_main_v72 (F := Ideal) x0 x2 x3 x4 (ix3 p k s)
      = x4 (ix5 ⟨(val_main_v8 (F := Ideal) x0 x2 (ix1 p)).toNat, hi⟩ ⟨(val_main_v15 (F := Ideal) x0 x3 (ix1 p)).toNat, hj⟩
          ⟨k.val / 5, by omega⟩ ⟨k.val % 5, by omega⟩ s) := by
  rw [val_main_v72_apply, idx72]
  unfold val_main_v71
  -- the block lookup reads the table at the two (clamped) start indices of row p
  rw [Cert.LibGather.gather_pair_block gather_S95x95x5x5x3_S1600000x2_S1600000x5x5x3_123_01_n_n_01_1_11553 rfl rfl rfl rfl rfl rfl
    x4 (val_main_v70 (F := Ideal) x0 x2 x3) p _ _ s (by decide) (by decide)]
  congr 1
  funext a
  match a with
  | ⟨0, _⟩ =>
    apply Fin.ext
    show min (val_main_v70 (F := Ideal) x0 x2 x3 (Cert.LibGather.iP2 p 0)).toInt.toNat (95 - 1) = _
    rw [col0 x0 x2 x3 p hi]
    exact clamp_id _ hi
  | ⟨1, _⟩ =>
    apply Fin.ext
    show min (val_main_v70 (F := Ideal) x0 x2 x3 (Cert.LibGather.iP2 p 1)).toInt.toNat (95 - 1) = _
    rw [col1 x0 x2 x3 p hj]
    exact clamp_id _ hj
  | ⟨2, _⟩ => rfl
  | ⟨3, _⟩ => rfl
  | ⟨4, _⟩ => rfl

end Cert.ReferenceIdeal.RefTable

end
-- ==== Proof.RefValue.lean ====
/-
  The reference's energy of one pair, read off its stages.

  Stage 152 (the sum of the two damped terms) at pair `p` depends on: the scaled distance (stage 1) at `p`; the two
  gathered expectation values (stages 116, 124) at `p`; the pair's coordination numbers (stages 50, 57) at `p`; and the
  gathered table block (stage 72, `[1600000, 25, 3]`) at `(p, k, s)` for the 25 points `k` and the three channels `s`
  (0 the value, 1 and 2 the two coordination numbers). Every operation between is pointwise, a slice, a reshape or
  a broadcast along the 25 points, a sum or a maximum over them; read at `p` they give `energy` of `c6R`.
-/
import proofs.«431380_j22763326669101_3_alg».proof.Proof.ReadP
import proofs.«431380_j22763326669101_3_alg».proof.Proof.PairFn
import Idealize.ShloMosaic.Lib.ValueIdx
import Idealize.ShloMosaic.Lib.ValueLayout
import Idealize.ShloMosaic.Lib.Pipeline.Value

set_option maxRecDepth 16384

noncomputable section

namespace Cert.ReferenceIdeal.RefValue

open Cert.ReferenceIdeal Cert.ReferenceIdeal.Gen Cert.ReferenceIdeal.ReadP
open Idealize.ShloMosaic Idealize.ShloMosaic.ValueIdx
open Cert.D3

variable (x0 : IVec S50000 32) (x1 : FVec Ideal S1600000 .f32) (x2 x3 : IVec S1600000 32) (x4 : FVec Ideal S95x95x5x5x3 .f32) (x5 x6 : FVec Ideal S95 .f32)

/-! ## Where the composed layout operations read -/

/-- The reshape of a one-channel slice `[P,25,1]` to `[P,25]` undone, then the slice of channel 1: `(p, k)` reads
    `(p, k, 1)` of the table block. -/
theorem idx_ch1 (p : Fin 1600000) (k : Fin 25) : idx_main_v73 (idx_main_v74 (ix2 p k)) = ix3 p k 1 := by
  funext a
  match a with
  | ⟨0, _⟩ => exact Fin.ext (by show (p.val * 25 + k.val) / 25 = p.val; omega)
  | ⟨1, _⟩ => exact Fin.ext (by show (p.val * 25 + k.val) / 1 % 25 = k.val; omega)
  | ⟨2, _⟩ => rfl

/-- The same for channel 2. -/
theorem idx_ch2 (p : Fin 1600000) (k : Fin 25) : idx_main_v79 (idx_main_v80 (ix2 p k)) = ix3 p k 2 := by
  funext a
  match a with
  | ⟨0, _⟩ => exact Fin.ext (by show (p.val * 25 + k.val) / 25 = p.val; omega)
  | ⟨1, _⟩ => exact Fin.ext (by show (p.val * 25 + k.val) / 1 % 25 = k.val; omega)
  | ⟨2, _⟩ => rfl

/-- The same for channel 0, as the comparison with zero reads it … -/
theorem idx_ch0 (p : Fin 1600000) (k : Fin 25) : idx_main_v86 (idx_main_v87 (ix2 p k)) = ix3 p k 0 := by
  funext a
  match a with
  | ⟨0, _⟩ => exact Fin.ext (by show (p.val * 25 + k.val) / 25 = p.val; omega)
  | ⟨1, _⟩ => exact Fin.ext (by show (p.val * 25 + k.val) / 1 % 25 = k.val; omega)
  | ⟨2, _⟩ => rfl

/-- … and as the weighted sum reads it. -/
theorem idx_ch0' (p : Fin 1600000) (k : Fin 25) : idx_main_v104 (idx_main_v105 (ix2 p k)) = ix3 p k 0 := by
  funext a
  match a with
  | ⟨0, _⟩ => exact Fin.ext (by show (p.val * 25 + k.val) / 25 = p.val; omega)
  | ⟨1, _⟩ => exact Fin.ext (by show (p.val * 25 + k.val) / 1 % 25 = k.val; omega)
  | ⟨2, _⟩ => rfl

/-- The index over pair `p` with point `k` put back on the reduced axis is `(p, k)`. -/
theorem lift_row (h : S1600000x25.Reduces [1] S1600000) (p : Fin 1600000) (k : Fin (S1600000x25.size 1)) :
    h.lift (ix1 p) k = ix2 p (⟨k.val, k.isLt⟩ : Fin 25) := by
  funext c
  apply Fin.ext
  match c with
  | ⟨0, _⟩ => rfl
  | ⟨1, _⟩ => rfl

/-! ## The three channels and the pair's two coordination numbers along the 25 points -/

theorem v74_at (p : Fin 1600000) (k : Fin 25) :
    val_main_v74 (F := Ideal) x0 x2 x3 x4 (ix2 p k) = val_main_v72 (F := Ideal) x0 x2 x3 x4 (ix3 p k 1) := by
  rw [val_main_v74_apply, val_main_v73_apply, idx_ch1]

theorem v80_at (p : Fin 1600000) (k : Fin 25) :
    val_main_v80 (F := Ideal) x0 x2 x3 x4 (ix2 p k) = val_main_v72 (F := Ideal) x0 x2 x3 x4 (ix3 p k 2) := by
  rw [val_main_v80_apply, val_main_v79_apply, idx_ch2]

theorem v87_at (p : Fin 1600000) (k : Fin 25) :
    val_main_v87 (F := Ideal) x0 x2 x3 x4 (ix2 p k) = val_main_v72 (F := Ideal) x0 x2 x3 x4 (ix3 p k 0) := by
  rw [val_main_v87_apply, val_main_v86_apply, idx_ch0]

theorem v105_at (p : Fin 1600000) (k : Fin 25) :
    val_main_v105 (F := Ideal) x0 x2 x3 x4 (ix2 p k) = val_main_v72 (F := Ideal) x0 x2 x3 x4 (ix3 p k 0) := by
  rw [val_main_v105_apply, val_main_v104_apply, idx_ch0']

theorem v76_at (p : Fin 1600000) (k : Fin 25) :
    val_main_v76 (F := Ideal) x0 x1 x2 x3 x5 (ix2 p k) = val_main_v50 (F := Ideal) x0 x1 x2 x3 x5 (ix1 p) := by
  rw [val_main_v76_apply, val_main_v75_apply]
  exact congrArg _ (funext fun a => by match a with | ⟨0, _⟩ => rfl)

theorem v82_at (p : Fin 1600000) (k : Fin 25) :
    val_main_v82 (F := Ideal) x0 x1 x2 x3 x5 (ix2 p k) = val_main_v57 (F := Ideal) x0 x1 x2 x3 x5 (ix1 p) := by
  rw [val_main_v82_apply, val_main_v81_apply]
  exact congrArg _ (funext fun a => by match a with | ⟨0, _⟩ => rfl)

/-! ## The logits, their maximum and the shift -/

/-- The logits of pair `p`: from the table block's three channels and the pair's two coordination numbers. -/
abbrev lg (p : Fin 1600000) : Fin 25 → EReal := fun k =>
  logit (val_main_v72 (F := Ideal) x0 x2 x3 x4 (ix3 p k 0)) (val_main_v72 (F := Ideal) x0 x2 x3 x4 (ix3 p k 1))
    (val_main_v72 (F := Ideal) x0 x2 x3 x4 (ix3 p k 2))
    (val_main_v50 (F := Ideal) x0 x1 x2 x3 x5 (ix1 p)) (val_main_v57 (F := Ideal) x0 x1 x2 x3 x5 (ix1 p))

/-- The shift of pair `p`: the largest logit, taken once more against `-∞`. -/
abbrev sft (p : Fin 1600000) : EReal :=
  max (Ideal.ofBits .f32 0xFF800000#32) (logitMax (lg x0 x1 x2 x3 x4 x5 p))

/-- Stage 92 (the select between `-4·r` and the fill) at `(p, k)` is the logit of point `k`. -/
theorem v92_at (p : Fin 1600000) (k : Fin 25) :
    val_main_v92 (F := Ideal) x0 x1 x2 x3 x4 x5 (ix2 p k) = lg x0 x1 x2 x3 x4 x5 p k := by
  rw [val_main_v92_apply, val_main_v91_apply, val_main_v90_apply, val_main_cst_21_apply, val_main_call0_v0_apply,
    val_main_cst_22_apply, val_main_v89_apply, val_main_v88_apply, val_main_cst_20_apply, val_main_v85_apply,
    val_main_v84_apply, val_main_v83_apply, val_main_v78_apply, val_main_v77_apply,
    v74_at, v76_at, v80_at, v82_at, v87_at]
  rfl

/-- Stage 93 (the maximum over the 25 points, folded from `-∞`) at `p` is the largest logit. -/
theorem v93_at (p : Fin 1600000) :
    val_main_v93 (F := Ideal) x0 x1 x2 x3 x4 x5 (ix1 p) = logitMax (lg x0 x1 x2 x3 x4 x5 p) := by
  have h : S1600000x25.Reduces [1] S1600000 := by decide
  unfold val_main_v93
  rw [Host.reduce_eq_fold_single FloatOps.maximumf _ _ reducesTo_S1600000x25_S1600000_d1 h h_S_]
  have hf : (val_main_v92 (F := Ideal) x0 x1 x2 x3 x4 x5 ∘ h.lift (ix1 p)) = fun k : Fin 25 => lg x0 x1 x2 x3 x4 x5 p k :=
    funext fun k => by
      show val_main_v92 (F := Ideal) x0 x1 x2 x3 x4 x5 (h.lift (ix1 p) k) = _
      rw [lift_row h p k, v92_at]
      rfl
  exact congrArg (fun f => Finset.fold max (Ideal.ofBits .f32 0xFF800000#32) f (Finset.univ : Finset (Fin 25))) hf

/-- Stage 95 (the second maximum against `-∞`) at `p` is the shift. -/
theorem v95_at (p : Fin 1600000) :
    val_main_v95 (F := Ideal) x0 x1 x2 x3 x4 x5 (ix1 p) = sft x0 x1 x2 x3 x4 x5 p := by
  rw [val_main_v95_apply, val_main_v94_apply, val_main_cst_24_apply, v93_at]
  rfl

/-! ## The weights, the normaliser and the coefficient -/

theorem v97_at (p : Fin 1600000) (k : Fin 25) :
    val_main_v97 (F := Ideal) x0 x1 x2 x3 x4 x5 (ix2 p k) = sft x0 x1 x2 x3 x4 x5 p := by
  rw [val_main_v97_apply, val_main_v96_apply, ← v95_at]
  exact congrArg _ (funext fun a => by match a with | ⟨0, _⟩ => rfl)

/-- Stage 99 at `(p, k)` is the weight of point `k`. -/
theorem v99_at (p : Fin 1600000) (k : Fin 25) :
    val_main_v99 (F := Ideal) x0 x1 x2 x3 x4 x5 (ix2 p k)
      = Ideal.exp (lg x0 x1 x2 x3 x4 x5 p k - sft x0 x1 x2 x3 x4 x5 p) := by
  rw [val_main_v99_apply, val_main_v98_apply, v92_at, v97_at]
  rfl

/-- Stage 100 at `p` is the sum of the 25 weights. -/
theorem v100_at (p : Fin 1600000) :
    val_main_v100 (F := Ideal) x0 x1 x2 x3 x4 x5 (ix1 p)
      = ∑ j : Fin 25, Ideal.exp (lg x0 x1 x2 x3 x4 x5 p j - sft x0 x1 x2 x3 x4 x5 p) := by
  rw [val_main_v100_apply, val_main_cst_25_apply, Ideal.ofBits_def, Ideal.ofBits_zero_f32, zero_add]
  refine Finset.sum_congr rfl fun j _ => ?_
  rw [← v99_at]
  exact congrArg _ (funext fun a => by match a with | ⟨0, _⟩ => rfl | ⟨1, _⟩ => rfl)

theorem v102_at (p : Fin 1600000) (k : Fin 25) :
    val_main_v102 (F := Ideal) x0 x1 x2 x3 x4 x5 (ix2 p k)
      = ∑ j : Fin 25, Ideal.exp (lg x0 x1 x2 x3 x4 x5 p j - sft x0 x1 x2 x3 x4 x5 p) := by
  rw [val_main_v102_apply, val_main_v101_apply, ← v100_at]
  exact congrArg _ (funext fun a => by match a with | ⟨0, _⟩ => rfl)

/-- Stage 106 at `(p, k)` is the normalised weight of point `k` times its value. -/
theorem v106_at (p : Fin 1600000) (k : Fin 25) :
    val_main_v106 (F := Ideal) x0 x1 x2 x3 x4 x5 (ix2 p k)
      = Ideal.div (Ideal.exp (lg x0 x1 x2 x3 x4 x5 p k - sft x0 x1 x2 x3 x4 x5 p))
          (∑ j : Fin 25, Ideal.exp (lg x0 x1 x2 x3 x4 x5 p j - sft x0 x1 x2 x3 x4 x5 p))
        * val_main_v72 (F := Ideal) x0 x2 x3 x4 (ix3 p k 0) := by
  rw [val_main_v106_apply, val_main_v103_apply, v99_at, v102_at, v105_at]
  rfl

/-- Stage 107 (the sum over the 25 points) at `p` is the reference's coefficient of the pair. -/
theorem v107_at (p : Fin 1600000) :
    val_main_v107 (F := Ideal) x0 x1 x2 x3 x4 x5 (ix1 p)
      = c6R (fun k => val_main_v72 (F := Ideal) x0 x2 x3 x4 (ix3 p k 0))
          (fun k => val_main_v72 (F := Ideal) x0 x2 x3 x4 (ix3 p k 1))
          (fun k => val_main_v72 (F := Ideal) x0 x2 x3 x4 (ix3 p k 2))
          (val_main_v50 (F := Ideal) x0 x1 x2 x3 x5 (ix1 p)) (val_main_v57 (F := Ideal) x0 x1 x2 x3 x5 (ix1 p)) := by
  rw [val_main_v107_apply, val_main_cst_26_apply, Ideal.ofBits_def, Ideal.ofBits_zero_f32, zero_add]
  unfold c6R meanR
  refine Finset.sum_congr rfl fun k _ => ?_
  exact Eq.trans (congrArg _ (funext fun a => by match a with | ⟨0, _⟩ => rfl | ⟨1, _⟩ => rfl)) (v106_at x0 x1 x2 x3 x4 x5 p k)

/-! ## The scalar chain from the coefficient to the energy -/

/-- Stage 152 at `p` is `energy` of the scaled distance, stage 107 and the two gathered expectation values there: the
    stages between are pointwise products, sums, quotients and one square root, in `energy`'s order. -/
theorem v152_chain (p : Fin 1600000) :
    val_main_v152 (F := Ideal) x0 x1 x2 x3 x4 x5 x6 (ix1 p)
      = energy (val_main_v1 (F := Ideal) x1 (ix1 p)) (val_main_v107 (F := Ideal) x0 x1 x2 x3 x4 x5 (ix1 p))
          (val_main_v116 (F := Ideal) x0 x2 x6 (ix1 p)) (val_main_v124 (F := Ideal) x0 x3 x6 (ix1 p)) := by
  rw [val_main_v152_apply, val_main_v151_apply, val_main_v150_apply, val_main_v149_apply, val_main_v148_apply,
    val_main_cst_37_apply, val_main_v147_apply, val_main_v146_apply, val_main_v145_apply, val_main_v144_apply,
    val_main_cst_36_apply, val_main_v143_apply, val_main_v142_apply, val_main_v141_apply, val_main_v140_apply,
    val_main_v139_apply, val_main_v138_apply, val_main_cst_35_apply, val_main_v137_apply, val_main_v136_apply,
    val_main_cst_34_apply, val_main_v135_apply, val_main_v134_apply, val_main_v133_apply, val_main_cst_33_apply,
    val_main_v132_apply, val_main_v131_apply, val_main_v130_apply, val_main_cst_32_apply, val_main_v129_apply,
    val_main_v128_apply, val_main_v127_apply, val_main_v126_apply, val_main_v125_apply, val_main_v117_apply,
    val_main_v109_apply, val_main_v108_apply, val_main_cst_27_apply]
  generalize val_main_v1 (F := Ideal) x1 (ix1 p) = d
  generalize val_main_v107 (F := Ideal) x0 x1 x2 x3 x4 x5 (ix1 p) = c6
  generalize val_main_v116 (F := Ideal) x0 x2 x6 (ix1 p) = r2i
  generalize val_main_v124 (F := Ideal) x0 x3 x6 (ix1 p) = r2j
  unfold energy
  simp only [Ideal.addf_def, Ideal.mulf_def, Ideal.hostDivf_def, Ideal.hostUnary_sqrt_def, Ideal.ofBits_def]

/-- The reference's per-pair energy at `p` is `energy` of its own coefficient `c6R`. -/
theorem ref_apply (p : Fin 1600000) :
    val_main_v152 (F := Ideal) x0 x1 x2 x3 x4 x5 x6 (ix1 p)
      = energy (val_main_v1 (F := Ideal) x1 (ix1 p))
          (c6R (fun k => val_main_v72 (F := Ideal) x0 x2 x3 x4 (ix3 p k 0))
               (fun k => val_main_v72 (F := Ideal) x0 x2 x3 x4 (ix3 p k 1))
               (fun k => val_main_v72 (F := Ideal) x0 x2 x3 x4 (ix3 p k 2))
               (val_main_v50 (F := Ideal) x0 x1 x2 x3 x5 (ix1 p)) (val_main_v57 (F := Ideal) x0 x1 x2 x3 x5 (ix1 p)))
          (val_main_v116 (F := Ideal) x0 x2 x6 (ix1 p)) (val_main_v124 (F := Ideal) x0 x3 x6 (ix1 p)) := by
  rw [v152_chain, v107_at]

end Cert.ReferenceIdeal.RefValue

end
-- ==== Proof.Reals.lean ====
/-
  Which of the reference's stages are real numbers.

  The coordination number of an atom (stage 43) is zero plus a finite sum of dampings, each a real whatever the
  distances; gathered at a pair's two atoms (stages 50, 57) it is an entry of that array, hence real. An entry of
  the gathered table block (stage 72) is an entry of the table, real when the table is.
-/
import proofs.«431380_j22763326669101_3_alg».proof.Proof.ReadP
import proofs.«431380_j22763326669101_3_alg».proof.Proof.Spec
import proofs.«431380_j22763326669101_3_alg».proof.Proof.LibGather
import Idealize.ShloMosaic.Lib.ValueIdx
import Idealize.ShloMosaic.Lib.Pipeline.Value

set_option maxRecDepth 16384

noncomputable section

namespace Cert.ReferenceIdeal.Reals

open Cert.ReferenceIdeal Cert.ReferenceIdeal.Gen Cert.ReferenceIdeal.ReadP
open Idealize.ShloMosaic Idealize.ShloMosaic.ValueIdx
open Cert.D3

variable (x0 : IVec S50000 32) (x1 : FVec Ideal S1600000 .f32) (x2 x3 : IVec S1600000 32) (x4 : FVec Ideal S95x95x5x5x3 .f32) (x5 x6 : FVec Ideal S95 .f32)

/-- The host's scatter-add, at any shapes: an entry plus a finite sum of updates. -/
theorem scatterAdd_isReal {s si su : Shape} (d : ScatterDims s si su) {w : Nat} (x : FVec Ideal s .f32) (idx : IVec si w)
    (upd : FVec Ideal su .f32) (i : s.Idx) (hx : IsReal (x i)) (hu : ∀ j, IsReal (upd j)) :
    IsReal (Host.scatterAdd d x idx upd i) := by
  unfold Host.scatterAdd
  rw [Ideal.hostScatterAdd_def]
  unfold Ideal.hostScatterAdd
  exact hx.add (isReal_sum _ _ fun j _ => hu j)

/-- A gather reads an entry of its operand, at any shapes. -/
theorem gather_isReal {s si t : Shape} (d : GatherDims s si t) {w : Nat} (x : s.Idx → EReal) (idx : IVec si w) (j : t.Idx)
    (hx : ∀ i, IsReal (x i)) : IsReal (Host.gather d x idx j) := by
  unfold Host.gather
  exact hx _

/-- Every damping (stage 40) is real. -/
theorem damp_isReal' (i : S1600000.Idx) : IsReal (val_main_v40 (F := Ideal) x0 x1 x2 x3 x5 i) := by
  have h := damp_isReal (-(val_main_v35 (F := Ideal) x0 x1 x2 x3 x5 i))
  rw [neg_neg] at h
  rw [val_main_v40_apply, val_main_v39_apply, val_main_cst_10_apply, val_main_v38_apply, val_main_v37_apply,
    val_main_cst_9_apply, val_main_v36_apply]
  simp only [Ideal.hostDivf_def, Ideal.addf_def, Ideal.hostUnary_exp_def, Ideal.ofBits_def, ofBits_one]
  exact h

/-- Every coordination number (stage 43) is real. -/
theorem nc_isReal (i : S50000.Idx) : IsReal (val_main_v43 (F := Ideal) x0 x1 x2 x3 x5 i) := by
  have h0 : IsReal (val_main_v41 (F := Ideal) i) := by
    rw [val_main_v41_apply, val_main_cst_11_apply]
    simp only [Ideal.ofBits_def, Ideal.ofBits_zero_f32]
    exact IsReal.zero
  unfold val_main_v43
  exact scatterAdd_isReal _ _ _ _ i h0 (damp_isReal' x0 x1 x2 x3 x5)

theorem nci_isReal (i : S1600000.Idx) : IsReal (val_main_v50 (F := Ideal) x0 x1 x2 x3 x5 i) := by
  exact gather_isReal gather_S50000_S1600000x1_S1600000_n_0_n_n_0_1_1 (val_main_v43 (F := Ideal) x0 x1 x2 x3 x5)
    (val_main_v49 (F := Ideal) x2) i (nc_isReal x0 x1 x2 x3 x5)

theorem ncj_isReal (i : S1600000.Idx) : IsReal (val_main_v57 (F := Ideal) x0 x1 x2 x3 x5 i) := by
  exact gather_isReal gather_S50000_S1600000x1_S1600000_n_0_n_n_0_1_1 (val_main_v43 (F := Ideal) x0 x1 x2 x3 x5)
    (val_main_v56 (F := Ideal) x3) i (nc_isReal x0 x1 x2 x3 x5)

/-- The gathered table block holds table entries: real when the table is. -/
theorem tab_isReal (h4 : ∀ i, IsReal (x4 i)) (i : S1600000x25x3.Idx) : IsReal (val_main_v72 (F := Ideal) x0 x2 x3 x4 i) := by
  rw [val_main_v72_apply]
  exact gather_isReal gather_S95x95x5x5x3_S1600000x2_S1600000x5x5x3_123_01_n_n_01_1_11553 x4 (val_main_v70 (F := Ideal) x0 x2 x3) _ h4

end Cert.ReferenceIdeal.Reals

end
-- ==== Proof.PreFacts.lean ====
/-
  What the precondition says, decoded: every atomic number lies in `[0, 95)`, and every entry of the reference
  table is a real number. The printed predicate is the conjunction of five all-reductions: `|x| < +∞` over each of
  the four float inputs, and `0 ≤ z ∧ z < 95` (signed) over the atomic numbers.
-/
import proofs.«431380_j22763326669101_3_alg».proof.Pre_finite_inputs
import proofs.«431380_j22763326669101_3_alg».proof.Proof.Gen.Pre_finite_inputs
import Idealize.ShloMosaic.Lib.ReduceAll
import Idealize.ShloMosaic.Lib.StableHlo.Predicate
import Idealize.ShloMosaic.PureOps.Ideal.Laws

noncomputable section

namespace Cert.D3.PreFacts

open Idealize.ShloMosaic Cert.Pre_finite_inputs

/-- The rank-0 shape has one index: two of them agree at every axis, there being none. -/
instance subsingleton_scalar_idx : Subsingleton S_.Idx := ⟨fun a b => funext fun d => d.elim0⟩

/-- The single-precision pattern with all exponent bits set and no fraction bit denotes `+∞`. -/
theorem ofBits_pos_inf : Ideal.ofBits .f32 0x7F800000#32 = (⊤ : EReal) := by
  simp [Ideal.ofBits, Ideal.ieee]

/-- `|x| < +∞`, with `|x| = max x (-x)`, rules out both infinities: at `⊤` the maximum is `⊤` itself, at `⊥` it is
    `-⊥ = ⊤`; what is left of the extended line is the reals. -/
theorem real_of_abs_lt_top (x : EReal) (h : Ideal.cmp .olt (max x (-x)) (⊤ : EReal) = 1#1) : ∃ r : ℝ, x = (r : EReal) := by
  induction x using EReal.rec with
  | bot => simp [Ideal.cmp] at h
  | coe r => exact ⟨r, rfl⟩
  | top => simp [Ideal.cmp] at h

/-- A word that is `≥ 0` and `< 95` read signed has its sign bit clear, so its unsigned value is its signed one,
    below 95. -/
theorem toNat_lt_of_signed_range (w : BitVec 32) (h0 : IntOp.cmpi .sge w 0#32 = 1#1) (h1 : IntOp.cmpi .slt w 95#32 = 1#1) :
    w.toNat < 95 := by
  have hge : (0#32 : BitVec 32).toInt ≤ w.toInt := IntOp.cmpi_sge.1 h0
  have hlt : w.toInt < (95#32 : BitVec 32).toInt := IntOp.cmpi_slt.1 h1
  have e0 : (0#32 : BitVec 32).toInt = 0 := by decide
  have e95 : (95#32 : BitVec 32).toInt = 95 := by decide
  rw [e0] at hge
  rw [e95] at hlt
  have hw := w.isLt
  rw [BitVec.toInt_eq_toNat_cond] at hge hlt
  split at hge <;> omega

/-- From the precondition: the atomic numbers are below 95 as naturals (so non-negative as signed words), and the
    table's entries are reals. -/
theorem of_pre (a0 : IVec S50000 32) (a1 : FVec Ideal S1600000 .f32) (a2 a3 : IVec S1600000 32)
    (a4 : FVec Ideal S95x95x5x5x3 .f32) (a5 a6 : FVec Ideal S95 .f32)
    (h : Cert.Pre_finite_inputs.fn (F := Ideal) a0 a1 a2 a3 a4 a5 a6 = fun _ => 1#1) :
    (∀ i, (a0 i).toNat < 95) ∧ (∀ i, ∃ r : ℝ, a4 i = (r : EReal)) := by
  -- the predicate's one value, at the one index of the rank-0 result
  have e := congrFun h (fun d => d.elim0)
  dsimp only [Cert.Pre_finite_inputs.fn, Cert.Pre_finite_inputs.fn_part1] at e
  simp only [andi, IntOp.andi_eq_one] at e
  -- of the five all-reductions, the one over the table and the one over the atomic numbers
  obtain ⟨⟨⟨⟨-, hTable⟩, -⟩, -⟩, hAtoms⟩ := e
  constructor
  · -- every element of the reduced mask is 1; at `i` the mask is `(a0 i ≥ 0) ∧ (a0 i < 95)`, the two constants
    -- being scalars broadcast to the whole vector
    intro i
    have hi := Host.reduce_andi_all _ _ _ _ _ hAtoms i
    simp only [andi, cmpi, broadcastInDim, constantI, IntOp.andi_eq_one] at hi
    exact toNat_lt_of_signed_range (a0 i) hi.1 hi.2
  · -- at `i` the mask is `|a4 i| < c`, with `c` the broadcast pattern of `+∞`
    intro i
    have hi := Host.reduce_andi_all _ _ _ _ _ hTable i
    simp only [cmpf, Host.absf, broadcastInDim, constant, Ideal.ofBits_def, ofBits_pos_inf] at hi
    exact real_of_abs_lt_top (a4 i) hi

end Cert.D3.PreFacts

end
-- ==== Proof.Bridge.lean ====
/-
  The idealized kernel's result is the reference's last stage.

  Under the precondition (atomic numbers in `[0, 95)`, real table entries) and at every pair `p`: the five packed rows
  the launch reads are the reference's stages 1, 50, 57, 116, 124 at `p`; row `25·s + k` of the launch's table is the
  reference's gathered block at `(p, k, s)` (both are the table at the pair's two atomic numbers, point `k`, channel
  `s`); the pair's coordination numbers and the block's entries are reals, so the kernel's coefficient (weighted sum
  over the sum of weights) is the reference's (normalised weights, then the sum); the rest of the pair's energy is one
  function on both sides. The two programs then scatter-add the same energies by the same indices and multiply by one.
-/
import proofs.«431380_j22763326669101_3_alg».proof.Proof.KIValue
import proofs.«431380_j22763326669101_3_alg».proof.Proof.KIPacked
import proofs.«431380_j22763326669101_3_alg».proof.Proof.KITableK
import proofs.«431380_j22763326669101_3_alg».proof.Proof.RefTable
import proofs.«431380_j22763326669101_3_alg».proof.Proof.RefValue
import proofs.«431380_j22763326669101_3_alg».proof.Proof.Reals
import proofs.«431380_j22763326669101_3_alg».proof.Proof.PreFacts

set_option maxRecDepth 16384

noncomputable section

namespace Cert.Bridge

open Cert.KernelIdeal Cert.KernelIdeal.Gen Cert.KernelIdeal.Hand Cert.KernelIdeal.KValue Cert.KernelIdeal.Packed
open Idealize.ShloMosaic Idealize.ShloMosaic.TcCoe Idealize.ShloMosaic.ValueIdx
open Idealize.SL Idealize.SL.Sem
open Cert.D3
open Cert.ReferenceIdeal.ReadP

variable (m : (ℓ : Loc nD τ sig) → Buf (Elt Ideal) ℓ) (c : Dev nD)

/-- Row `25·s + k` of the launch's table at pair `p` is the reference's gathered block at `(p, k, s)`. -/
theorem table_eq (hZa : ∀ i, ((arg0 m c) i).toNat < 95) (s : Fin 3) (k : Fin 25) (p : Fin 1600000) :
    (V m c main_v79 : S75x1600000.Idx → EReal) (ix2 (slab s k) p) = val_main_v72 (F := Ideal) (arg0 m c) (arg2 m c) (arg3 m c) (arg4 m c) (ix3 p k s) := by
  have hi := Cert.ReferenceIdeal.RefTable.zi_lt (arg0 m c) (arg2 m c) hZa p
  have hj := Cert.ReferenceIdeal.RefTable.zj_lt (arg0 m c) (arg3 m c) hZa p
  rw [Cert.ReferenceIdeal.RefTable.block_at (arg0 m c) (arg2 m c) (arg3 m c) (arg4 m c) s k p hi hj]
  have ei : Cert.KernelIdeal.TableK.zi m c p = val_main_v8 (F := Ideal) (arg0 m c) (arg2 m c) (ix1 p) :=
    congrFun (zi_eq m c) (ix1 p)
  have ej : Cert.KernelIdeal.TableK.zj m c p = val_main_v15 (F := Ideal) (arg0 m c) (arg3 m c) (ix1 p) :=
    congrFun (zj_eq m c) (ix1 p)
  have hi' : (Cert.KernelIdeal.TableK.zi m c p).toNat < 95 := by rw [ei]; exact hi
  have hj' : (Cert.KernelIdeal.TableK.zj m c p).toNat < 95 := by rw [ej]; exact hj
  refine (Cert.KernelIdeal.TableK.table_at m c s k p hi' hj').trans ?_
  refine congrArg (arg4 m c) ?_
  funext a
  match a with
  | ⟨0, _⟩ => exact Fin.ext (congrArg BitVec.toNat ei)
  | ⟨1, _⟩ => exact Fin.ext (congrArg BitVec.toNat ej)
  | ⟨2, _⟩ => rfl
  | ⟨3, _⟩ => rfl
  | ⟨4, _⟩ => rfl

/-- The kernel's per-pair energies are the reference's stage 152. -/
theorem eK_eq (hZa : ∀ i, ((arg0 m c) i).toNat < 95) (hT : ∀ i, IsReal ((arg4 m c) i)) :
    eK m c = val_main_v152 (F := Ideal) (arg0 m c) (arg1 m c) (arg2 m c) (arg3 m c) (arg4 m c) (arg5 m c) (arg6 m c) := by
  funext i
  obtain ⟨p, rfl⟩ : ∃ p : Fin 1600000, i = ix1 p := ⟨i 0, eq_ix1 i⟩
  rw [eK_apply m c (ix1 p) p rfl, Cert.ReferenceIdeal.RefValue.ref_apply]
  unfold pairE
  dsimp only [Cert.KernelIdeal.KValue.packed, Cert.KernelIdeal.KValue.table]
  rw [packed_row0 m c p, packed_row1 m c p, packed_row2 m c p, packed_row3 m c p, packed_row4 m c p]
  simp only [table_eq m c hZa]
  exact congrArg (fun z => energy _ z _ _)
    (c6K_eq_c6R
      (fun k => val_main_v72 (F := Ideal) (arg0 m c) (arg2 m c) (arg3 m c) (arg4 m c) (ix3 p k 0))
      (fun k => val_main_v72 (F := Ideal) (arg0 m c) (arg2 m c) (arg3 m c) (arg4 m c) (ix3 p k 1))
      (fun k => val_main_v72 (F := Ideal) (arg0 m c) (arg2 m c) (arg3 m c) (arg4 m c) (ix3 p k 2))
      (val_main_v50 (F := Ideal) (arg0 m c) (arg1 m c) (arg2 m c) (arg3 m c) (arg5 m c) (ix1 p))
      (val_main_v57 (F := Ideal) (arg0 m c) (arg1 m c) (arg2 m c) (arg3 m c) (arg5 m c) (ix1 p))
      (fun k => Cert.ReferenceIdeal.Reals.tab_isReal _ _ _ _ hT _) (fun k => Cert.ReferenceIdeal.Reals.tab_isReal _ _ _ _ hT _)
      (fun k => Cert.ReferenceIdeal.Reals.tab_isReal _ _ _ _ hT _)
      (Cert.ReferenceIdeal.Reals.nci_isReal _ _ _ _ _ _) (Cert.ReferenceIdeal.Reals.ncj_isReal _ _ _ _ _ _))

/-- The kernel's result is the reference's last stage of the same arguments. -/
theorem kres_eq (hpre : Cert.Pre_finite_inputs.fn (F := Ideal) (arg0 m c) (arg1 m c) (arg2 m c) (arg3 m c) (arg4 m c) (arg5 m c) (arg6 m c) = fun _ => 1#1) :
    kres m c = val_main_v157 (F := Ideal) (arg0 m c) (arg1 m c) (arg2 m c) (arg3 m c) (arg4 m c) (arg5 m c) (arg6 m c) := by
  obtain ⟨hZa, hT⟩ := Cert.D3.PreFacts.of_pre _ _ _ _ _ _ _ hpre
  unfold kres
  rw [eK_eq m c hZa hT]
  rfl

end Cert.Bridge

end
-- ==== Proof.lean ====
/-
  The certificate: the three frames, the (empty) idealization ledger, and the equivalence over the extended reals.

  The kernel's program — host operations, one launch over 100 blocks of 16000 pairs, host operations — runs to the
  end with its arguments unchanged, at the word level and idealized; the reference does too, being a straight line
  of host operations. Under the precondition the idealized kernel's result, the per-pair energies scatter-added per
  atom, equals the reference's: pair by pair the two compute one energy, the kernel normalising the softmax-weighted
  mean after the weighted sum and the reference before it.
-/
import proofs.«431380_j22763326669101_3_alg».proof.Defs
import proofs.«431380_j22763326669101_3_alg».proof.Proof.Gen.Kernel
import proofs.«431380_j22763326669101_3_alg».proof.Proof.Gen.KernelIdeal
import proofs.«431380_j22763326669101_3_alg».proof.Proof.Gen.ReferenceIdeal
import proofs.«431380_j22763326669101_3_alg».proof.Proof.Gen.Pre_finite_inputs
import proofs.«431380_j22763326669101_3_alg».proof.Proof.KFrame
import proofs.«431380_j22763326669101_3_alg».proof.Proof.KIFrame
import proofs.«431380_j22763326669101_3_alg».proof.Proof.RefRun
import proofs.«431380_j22763326669101_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- Both idealized programs end at the reference's last stage of the (agreeing) arguments. -/
theorem algebraic : Cert.algebraic_KernelIdeal_ReferenceIdeal := by
  intro m ρ m' ρ' hpre hagree
  refine ⟨fun c => Cert.ReferenceIdeal.ReadP.val_main_v157 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.Bridge.kres_eq m c (hpre c)), (h c).2⟩)
      (Cert.KernelIdeal.KValue.run m ρ)
  · refine (θ_run Cert.ReferenceIdeal.defs _ _).mono (fun _ h c => ⟨(h c).1.trans ?_, (h c).2⟩)
      (Cert.ReferenceIdeal.RefRun.run (F := Ideal) m' ρ')
    rw [(hagree c).1, (hagree c).2.1, (hagree c).2.2.1, (hagree c).2.2.2.1, (hagree c).2.2.2.2.1, (hagree c).2.2.2.2.2.1,
      (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
